-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S128x8192 : Shape := ⟨2, ![128, 8192]⟩
abbrev S2x8x128 : Shape := ⟨3, ![2, 8, 128]⟩
abbrev S4096x128 : Shape := ⟨2, ![4096, 128]⟩
abbrev S128x4096 : Shape := ⟨2, ![128, 4096]⟩
abbrev S2048x128 : Shape := ⟨2, ![2048, 128]⟩
abbrev S1x8x128 : Shape := ⟨3, ![1, 8, 128]⟩
abbrev S1x4096 : Shape := ⟨2, ![1, 4096]⟩
abbrev S4096 : Shape := ⟨1, ![4096]⟩
abbrev S4096x1 : Shape := ⟨2, ![4096, 1]⟩
abbrev S2048 : Shape := ⟨1, ![2048]⟩
abbrev S2048x1 : Shape := ⟨2, ![2048, 1]⟩
abbrev S2048x4096 : Shape := ⟨2, ![2048, 4096]⟩
abbrev S1x1x4096 : Shape := ⟨3, ![1, 1, 4096]⟩
abbrev S1 : Shape := ⟨1, ![1]⟩
abbrev S1x1x1 : Shape := ⟨3, ![1, 1, 1]⟩
abbrev S2x1x1 : Shape := ⟨3, ![2, 1, 1]⟩
abbrev S2 : Shape := ⟨1, ![2]⟩
abbrev S_ : Shape := ⟨0, ![]⟩
abbrev S128 : Shape := ⟨1, ![128]⟩
abbrev S1x128 : Shape := ⟨2, ![1, 128]⟩

abbrev nBuf : Space → Nat
  | .hbm => 54
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S128x8192, .f32⟩
  | .hbm, ⟨3, _⟩ => ⟨S128x8192, .bf16⟩
  | .hbm, ⟨4, _⟩ => ⟨S2x8x128, .f32⟩
  | .hbm, ⟨5, _⟩ => ⟨S2x1x1, .f32⟩
  | .hbm, ⟨6, _⟩ => ⟨S2, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S_, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x128, .f32⟩
  | .hbm, ⟨28, _⟩ => ⟨S8192x128, .f32⟩
  | .hbm, ⟨29, _⟩ => ⟨S8192x128, .f32⟩
  | .hbm, ⟨30, _⟩ => ⟨S8192x128, .f32⟩
  | .hbm, ⟨31, _⟩ => ⟨S_, .f32⟩
  | .hbm, ⟨32, _⟩ => ⟨S128, .f32⟩
  | .hbm, ⟨33, _⟩ => ⟨S_, .f32⟩
  | .hbm, ⟨34, _⟩ => ⟨S128, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S128x4096, .bf16⟩
  | .local _ .vmem, ⟨3, _⟩ => ⟨S128x4096, .bf16⟩
  | .local _ .vmem, ⟨4, _⟩ => ⟨S2048x128, .f32⟩
  | .local _ .vmem, ⟨5, _⟩ => ⟨S2048x128, .f32⟩
  | .local _ .vmem, ⟨6, _⟩ => ⟨S1x8x128, .f32⟩
  | .local _ .vmem, ⟨7, _⟩ => ⟨S1x8x128, .f32⟩
  | .local _ .vmem, ⟨8, _⟩ => ⟨S1x4096, .f32⟩
  | .local _ .vmem, ⟨9, _⟩ => ⟨S1x4096, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_cst_4 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_v25 : Ref sig .tc := ⟨.hbm, 38, rfl⟩
abbrev main_call0_cst : Ref sig .tc := ⟨.hbm, 39, rfl⟩
abbrev main_call0_v0 : Ref sig .tc := ⟨.hbm, 40, rfl⟩
abbrev main_v26 : Ref sig .tc := ⟨.hbm, 41, rfl⟩
abbrev main_cst_10 : Ref sig .tc := ⟨.hbm, 42, rfl⟩
abbrev main_v27 : Ref sig .tc := ⟨.hbm, 43, rfl⟩
abbrev main_cst_11 : Ref sig .tc := ⟨.hbm, 44, rfl⟩
abbrev main_v28 : Ref sig .tc := ⟨.hbm, 45, rfl⟩
abbrev main_cst_12 : Ref sig .tc := ⟨.hbm, 46, rfl⟩
abbrev main_v29 : Ref sig .tc := ⟨.hbm, 47, rfl⟩
abbrev main_cst_13 : Ref sig .tc := ⟨.hbm, 48, rfl⟩
abbrev main_v30 : Ref sig .tc := ⟨.hbm, 49, rfl⟩
abbrev main_v31 : Ref sig .tc := ⟨.hbm, 50, rfl⟩
abbrev main_cst_14 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S8192x128_S128x8192_1_0 : S8192x128.Transposes [1, 0] S128x8192
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  reduces_S4096x128_S4096 : S4096x128.Reduces [1] S4096
  shapeCasts_S4096_S4096x1 : S4096.ShapeCasts S4096x1
  transposes_S4096x1_p1_0_S1x4096 : S4096x1.Transposes [1, 0] S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S2048x128_S2048x128_0_0 : ∀ a, (![0, 0] : Fin 2 → Nat) a + S2048x128.size a ≤ S2048x128.size a
  h_S2048x128 : 0 < S2048x128.numel
  reduces_S2048x128_S2048 : S2048x128.Reduces [1] S2048
  shapeCasts_S2048_S2048x1 : S2048.ShapeCasts S2048x1
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  broadcasts_S2048x1_S2048x4096 : S2048x1.Broadcasts S2048x4096
  reduces_S2048x4096_S4096 : S2048x4096.Reduces [0] S4096
  shapeCasts_S4096_S1x4096 : S4096.ShapeCasts S1x4096
  shapeCasts_S1x4096_S1x1x4096 : S1x4096.ShapeCasts S1x1x4096
  reduces_S1x1x4096_S1 : S1x1x4096.Reduces [1, 2] S1
  shapeCasts_S1_S1x1x1 : S1.ShapeCasts S1x1x1
  inpos_S1x1x1_p0_0_0 : ∀ a, (![0, 0, 0] : Fin 3 → Nat) a < S1x1x1.size a
  inb_S1x8x128_S1x8x128_0_0_0 : ∀ a, (![0, 0, 0] : Fin 3 → Nat) a + S1x8x128.size a ≤ S1x8x128.size a
  h_S1x8x128 : 0 < S1x8x128.numel
  slices_S2x8x128_S2x1x1_0_0_0 : S2x8x128.Slices ![0, 0, 0] S2x1x1
  shapeCasts_S2x1x1_S2 : S2x1x1.ShapeCasts S2
  reducesTo_S2_S_d0 : S2.ReducesTo [0] S_
  h_S_ : 0 < S_.numel
  reducesTo_S8192x128_S128_d0 : S8192x128.ReducesTo [0] S128
  bcast_S_S128 : S_.BroadcastsInDim S128 (![] : Fin 0 → Fin S128.rank)
  reducesTo_S128_S_d0 : S128.ReducesTo [0] S_
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S2048x128_S128x4096_S2048x4096_1_0_0_1_n_n_wf : DotDims.WF S2048x128 S128x4096 S2048x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S8192x128.size a
  hwx0_0 : ∀ i : grid0.Coords, EltTy.bits .f32 = 32 ∨ (Rect.block (s := S8192x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x8192.size a
  hwx0_1 : ∀ i : grid0.Coords, EltTy.bits .bf16 = 32 ∨ (Rect.block (s := S128x8192) S128x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S8192x128.size a
  hwx0_2 : ∀ i : grid0.Coords, EltTy.bits .f32 = 32 ∨ (Rect.block (s := S8192x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8x128.size a ≤ S2x8x128.size a
  hwx0_3 : ∀ i : grid0.Coords, EltTy.bits .f32 = 32 ∨ (Rect.block (s := S2x8x128) S1x8x128.size (cc0_transform_3 i) (hinb0_3 i)).WholeWords (EltTy.packing .f32)

variable [Facts₀]

def dot_S2048x128_S128x4096_S2048x4096_1_0_0_1_n_n : DotDims S2048x128 S128x4096 S2048x4096 where
  lhsContracting := [1]
  rhsContracting := [0]
  lhsNonContracting := [0]
  rhsNonContracting := [1]
  lhsBatch := []
  rhsBatch := []
  wf := dot_S2048x128_S128x4096_S2048x4096_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x128 : Shape := ⟨2, ![8192, 128]⟩
abbrev S_ : Shape := ⟨0, ![]⟩
abbrev S128 : Shape := ⟨1, ![128]⟩
abbrev S8192 : Shape := ⟨1, ![8192]⟩
abbrev S128x8192 : Shape := ⟨2, ![128, 8192]⟩
abbrev S8192x8192 : Shape := ⟨2, ![8192, 8192]⟩
abbrev S8192x1 : Shape := ⟨2, ![8192, 1]⟩
abbrev S1x8192 : Shape := ⟨2, ![1, 8192]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S128, .f32⟩
  | .hbm, ⟨4, _⟩ => ⟨S_, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S8192x128, .f32⟩
  | .hbm, ⟨21, _⟩ => ⟨S_, .f32⟩
  | .hbm, ⟨22, _⟩ => ⟨S8192, .f32⟩
  | .hbm, ⟨23, _⟩ => ⟨S8192x128, .f32⟩
  | .hbm, ⟨24, _⟩ => ⟨S_, .f32⟩
  | .hbm, ⟨25, _⟩ => ⟨S8192, .f32⟩
  | .hbm, ⟨26, _⟩ => ⟨S128x8192, .f32⟩
  | .hbm, ⟨27, _⟩ => ⟨S8192x8192, .f32⟩
  | .hbm, ⟨28, _⟩ => ⟨S8192x1, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S1x8192, .f32⟩
  | .hbm, ⟨35, _⟩ => ⟨S8192x8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S128, .f32⟩
  | .hbm, ⟨48, _⟩ => ⟨S_, .f32⟩
  | .hbm, ⟨49, _⟩ => ⟨S128, .f32⟩
  | .hbm, ⟨50, _⟩ => ⟨S128, .f32⟩
  | .hbm, ⟨51, _⟩ => ⟨S1x128, .f32⟩
  | .hbm, ⟨52, _⟩ => ⟨S8192x128, .f32⟩
  | .hbm, ⟨53, _⟩ => ⟨S8192x128, .f32⟩
  | .hbm, ⟨54, _⟩ => ⟨S8192x128, .f32⟩
  | .hbm, ⟨55, _⟩ => ⟨S_, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_v9 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩
abbrev main_cst_6 : Ref sig .tc := ⟨.hbm, 21, rfl⟩
abbrev main_v12 : Ref sig .tc := ⟨.hbm, 22, rfl⟩
abbrev main_v13 : Ref sig .tc := ⟨.hbm, 23, rfl⟩
abbrev main_cst_7 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_8 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_9 : Ref sig .tc := ⟨.hbm, 37, rfl⟩
abbrev main_v25 : Ref sig .tc := ⟨.hbm, 38, rfl⟩
abbrev main_cst_10 : Ref sig .tc := ⟨.hbm, 39, rfl⟩
abbrev main_v26 : Ref sig .tc := ⟨.hbm, 40, rfl⟩
abbrev main_cst_11 : Ref sig .tc := ⟨.hbm, 41, rfl⟩
abbrev main_v27 : Ref sig .tc := ⟨.hbm, 42, rfl⟩
abbrev main_cst_12 : Ref sig .tc := ⟨.hbm, 43, rfl⟩
abbrev main_v28 : Ref sig .tc := ⟨.hbm, 44, rfl⟩
abbrev main_v29 : Ref sig .tc := ⟨.hbm, 45, rfl⟩
abbrev main_cst_13 : Ref sig .tc := ⟨.hbm, 46, rfl⟩
abbrev main_v30 : Ref sig .tc := ⟨.hbm, 47, rfl⟩
abbrev main_cst_14 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_15 : Ref sig .tc := ⟨.hbm, 55, rfl⟩
abbrev main_v37 : Ref sig .tc := ⟨.hbm, 56, rfl⟩
abbrev main_cst_16 : Ref sig .tc := ⟨.hbm, 57, rfl⟩
abbrev main_v38 : Ref sig .tc := ⟨.hbm, 58, rfl⟩
abbrev main_v39 : Ref sig .tc := ⟨.hbm, 59, rfl⟩
abbrev main_cst_17 : Ref sig .tc := ⟨.hbm, 60, rfl⟩
abbrev main_v40 : Ref sig .tc := ⟨.hbm, 61, rfl⟩
abbrev main_v41 : Ref sig .tc := ⟨.hbm, 62, rfl⟩
abbrev main_call0_cst : Ref sig .tc := ⟨.hbm, 63, rfl⟩
abbrev main_call0_v0 : Ref sig .tc := ⟨.hbm, 64, rfl⟩
abbrev main_v42 : Ref sig .tc := ⟨.hbm, 65, rfl⟩
abbrev main_cst_18 : Ref sig .tc := ⟨.hbm, 66, rfl⟩
abbrev main_v43 : Ref sig .tc := ⟨.hbm, 67, rfl⟩
abbrev main_cst_19 : Ref sig .tc := ⟨.hbm, 68, rfl⟩
abbrev main_v44 : Ref sig .tc := ⟨.hbm, 69, rfl⟩
abbrev main_cst_20 : Ref sig .tc := ⟨.hbm, 70, rfl⟩
abbrev main_v45 : Ref sig .tc := ⟨.hbm, 71, rfl⟩
abbrev main_v46 : Ref sig .tc := ⟨.hbm, 72, rfl⟩

abbrev nD : Nat := 1
abbrev τ : Topo := Topo.v7x

variable {F : FTy → Type} [FloatOps F]

class Facts₀ : Prop where
  reducesTo_S8192x128_S128_d0 : S8192x128.ReducesTo [0] S128
  h_S_ : 0 < S_.numel
  bcast_S_S128 : S_.BroadcastsInDim S128 (![] : Fin 0 → Fin S128.rank)
  reducesTo_S128_S_d0 : S128.ReducesTo [0] S_
  reducesTo_S8192x128_S8192_d1 : S8192x128.ReducesTo [1] S8192
  transposes_S8192x128_S128x8192_1_0 : S8192x128.Transposes [1, 0] S128x8192
  bcast_S8192_S8192x1_0 : S8192.BroadcastsInDim S8192x1 (![0] : Fin 1 → Fin S8192x1.rank)
  bcast_S_S8192x8192 : S_.BroadcastsInDim S8192x8192 (![] : Fin 0 → Fin S8192x8192.rank)
  bcast_S8192x1_S8192x8192_0_1 : S8192x1.BroadcastsInDim S8192x8192 (![0, 1] : Fin 2 → Fin S8192x8192.rank)
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  reducesTo_S8192_S_d0 : S8192.ReducesTo [0] S_
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Pieces.lean ====
/-
  What each control case of the kernel body leaves, as the body's own arithmetic:
  the squared-norm scratch after the first block of a half is the row of squared norms of the half's rows of x;
  the running-minimum scratch after a block is the block's update of what it held before (+∞ before the first
  block); and the output block after the last block is the splat of the sum of twice the running minimum plus the
  squared norms. Each is the one covering store's payload, its loads read through the whole staging buffers.
-/
import proofs.«402168_j45449343926664_3_alg».proof.Proof.Gen.KernelIdeal.Frame
import Idealize.ShloMosaic.Lib.Pipeline.Value

set_option maxRecDepth 16384

noncomputable section

namespace Cert.KernelIdeal.Pieces

open Idealize.ShloMosaic Idealize.ShloMosaic.TcCoe Idealize.ShloMosaic.Tactic Idealize.SL.Sem
open Cert.KernelIdeal Cert.KernelIdeal.Gen

variable {F : FTy → Type} [FloatOps F]

/-- The zero offsets of a rank-2 whole-buffer rectangle. -/
theorem zero2 : (![0, 0] : Fin 2 → Nat) = fun _ => 0 := by
  funext a; match a with | ⟨0, _⟩ => rfl | ⟨1, _⟩ => rfl

/-- The zero offsets of a rank-3 whole-buffer rectangle. -/
theorem zero3 : (![0, 0, 0] : Fin 3 → Nat) = fun _ => 0 := by
  funext a; match a with | ⟨0, _⟩ => rfl | ⟨1, _⟩ => rfl | ⟨2, _⟩ => rfl

/-- First block of a half: the squared-norm scratch holds the squared norms of the half's rows. -/
theorem sout_A_0 (c : Dev nD) (i : grid0.Coords) (arg2 : Memref sig .tc .vmem S4096x128 .f32) (harg2 : arg2.IsWhole) (arg3 : Memref sig .tc .vmem S128x4096 .bf16) (harg3 : arg3.IsWhole) (arg4 : Memref sig .tc .vmem S2048x128 .f32) (harg4 : arg4.IsWhole) (arg5 : Memref sig .tc .vmem S1x8x128 .f32) (harg5 : arg5.IsWhole) (arg6 : Memref sig .tc .vmem S1x4096 .f32) (harg6 : arg6.IsWhole) (arg7 : Memref sig .tc .vmem S1x4096 .f32) (harg7 : arg7.IsWhole) (hc0 : cond0_0 i) (hc1 : ¬cond0_1 i)
    (x0 : Vec F S4096x128 .f32) (x1 : Vec F S128x4096 .bf16) (x2 : Vec F S2048x128 .f32) :
    sout0_A_0 c i arg2 harg2 arg3 harg3 arg4 harg4 arg5 harg5 arg6 harg6 arg7 harg7 hc0 hc1 x0 x1 x2 = k0_pay1 x0 := by
  unfold sout0_A_0
  rw [View.read_writes_eq_canon _ _ _ (scover0_A_0 c i arg2 harg2 arg3 harg3 arg4 harg4 arg5 harg5 arg6 harg6 arg7 harg7 hc0 hc1 x0 x1 x2)]
  unfold kernelRun0_A; dsimp only; sl_unfold_words
  rw [View.canon_unit_zero zero2]
  simp only [View.readAt_eq_ld, harg2.read_unread, View.ld_unit_zero (S := S4096x128) zero2]

/-- First block of a half: the running minimum is the block's update of +∞. -/
theorem sout_A_1 (c : Dev nD) (i : grid0.Coords) (arg2 : Memref sig .tc .vmem S4096x128 .f32) (harg2 : arg2.IsWhole) (arg3 : Memref sig .tc .vmem S128x4096 .bf16) (harg3 : arg3.IsWhole) (arg4 : Memref sig .tc .vmem S2048x128 .f32) (harg4 : arg4.IsWhole) (arg5 : Memref sig .tc .vmem S1x8x128 .f32) (harg5 : arg5.IsWhole) (arg6 : Memref sig .tc .vmem S1x4096 .f32) (harg6 : arg6.IsWhole) (arg7 : Memref sig .tc .vmem S1x4096 .f32) (harg7 : arg7.IsWhole) (hc0 : cond0_0 i) (hc1 : ¬cond0_1 i)
    (x0 : Vec F S4096x128 .f32) (x1 : Vec F S128x4096 .bf16) (x2 : Vec F S2048x128 .f32) :
    sout0_A_1 c i arg2 harg2 arg3 harg3 arg4 harg4 arg5 harg5 arg6 harg6 arg7 harg7 hc0 hc1 x0 x1 x2 = k0_pay3 x2 x1 (k0_pay2 (F := F)) := by
  unfold sout0_A_1
  rw [View.read_writes_eq_canon _ _ _ (scover0_A_1 c i arg2 harg2 arg3 harg3 arg4 harg4 arg5 harg5 arg6 harg6 arg7 harg7 hc0 hc1 x0 x1 x2)]
  unfold kernelRun0_A; dsimp only; sl_unfold_words
  rw [View.canon_cons_unit_zero (S := S1x4096) zero2, View.readCov_unit_zero (S := S1x4096) _ zero2]
  simp only [View.readAt_eq_ld, harg4.read_unread, harg3.read_unread,
    View.ld_unit_zero (S := S2048x128) zero2, View.ld_unit_zero (S := S128x4096) zero2]

/-- A later block: the running minimum is the block's update of what the block before left. -/
theorem sout_B_1 (c : Dev nD) (i : grid0.Coords) (arg2 : Memref sig .tc .vmem S4096x128 .f32) (harg2 : arg2.IsWhole) (arg3 : Memref sig .tc .vmem S128x4096 .bf16) (harg3 : arg3.IsWhole) (arg4 : Memref sig .tc .vmem S2048x128 .f32) (harg4 : arg4.IsWhole) (arg5 : Memref sig .tc .vmem S1x8x128 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : ¬cond0_1 i)
    (x0 : Vec F S4096x128 .f32) (x1 : Vec F S128x4096 .bf16) (x2 : Vec F S2048x128 .f32) (xs0 : Vec F S1x4096 .f32) (xs1 : Vec F S1x4096 .f32) :
    sout0_B_1 c i arg2 harg2 arg3 harg3 arg4 harg4 arg5 harg5 arg6 harg6 arg7 harg7 hc0 hc1 x0 x1 x2 xs0 xs1 = k0_pay3 x2 x1 xs1 := by
  unfold sout0_B_1
  rw [View.read_writes_eq_canon _ _ _ (scover0_B_1 c i arg2 harg2 arg3 harg3 arg4 harg4 arg5 harg5 arg6 harg6 arg7 harg7 hc0 hc1 x0 x1 x2 xs0 xs1)]
  unfold kernelRun0_B; dsimp only; sl_unfold_words
  rw [View.canon_unit_zero zero2]
  simp only [View.readAt_eq_ld, harg4.read_unread, harg3.read_unread, harg7.read_unread,
    View.ld_unit_zero (S := S2048x128) zero2, View.ld_unit_zero (S := S128x4096) zero2, View.ld_unit_zero (S := S1x4096) zero2]

/-- The last block: the running minimum likewise. -/
theorem sout_C_1 (c : Dev nD) (i : grid0.Coords) (arg2 : Memref sig .tc .vmem S4096x128 .f32) (harg2 : arg2.IsWhole) (arg3 : Memref sig .tc .vmem S128x4096 .bf16) (harg3 : arg3.IsWhole) (arg4 : Memref sig .tc .vmem S2048x128 .f32) (harg4 : arg4.IsWhole) (arg5 : Memref sig .tc .vmem S1x8x128 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : cond0_1 i)
    (x0 : Vec F S4096x128 .f32) (x1 : Vec F S128x4096 .bf16) (x2 : Vec F S2048x128 .f32) (xs0 : Vec F S1x4096 .f32) (xs1 : Vec F S1x4096 .f32) :
    sout0_C_1 c i arg2 harg2 arg3 harg3 arg4 harg4 arg5 harg5 arg6 harg6 arg7 harg7 hc0 hc1 x0 x1 x2 xs0 xs1 = k0_pay3 x2 x1 xs1 := by
  unfold sout0_C_1
  rw [View.read_writes_eq_canon _ _ _ (scover0_C_1 c i arg2 harg2 arg3 harg3 arg4 harg4 arg5 harg5 arg6 harg6 arg7 harg7 hc0 hc1 x0 x1 x2 xs0 xs1)]
  unfold kernelRun0_C; dsimp only; sl_unfold_words
  rw [View.canon_unit_zero zero2]
  simp only [View.readAt_eq_ld, harg4.read_unread, harg3.read_unread, harg7.read_unread,
    View.ld_unit_zero (S := S2048x128) zero2, View.ld_unit_zero (S := S128x4096) zero2, View.ld_unit_zero (S := S1x4096) zero2]

/-- The last block: the output block is the splat of the sum, over the half's rows, of twice the final running
    minimum plus the squared norm. -/
theorem out_C_3 (c : Dev nD) (i : grid0.Coords) (arg2 : Memref sig .tc .vmem S4096x128 .f32) (harg2 : arg2.IsWhole) (arg3 : Memref sig .tc .vmem S128x4096 .bf16) (harg3 : arg3.IsWhole) (arg4 : Memref sig .tc .vmem S2048x128 .f32) (harg4 : arg4.IsWhole) (arg5 : Memref sig .tc .vmem S1x8x128 .f32) (harg5 : arg5.IsWhole) (arg6 : Memref sig .tc .vmem S1x4096 .f32) (harg6 : arg6.IsWhole) (arg7 : Memref sig .tc .vmem S1x4096 .f32) (harg7 : arg7.IsWhole) (hc0 : ¬cond0_0 i) (hc1 : cond0_1 i)
    (x0 : Vec F S4096x128 .f32) (x1 : Vec F S128x4096 .bf16) (x2 : Vec F S2048x128 .f32) (xs0 : Vec F S1x4096 .f32) (xs1 : Vec F S1x4096 .f32) :
    out0_C_3 c i arg2 harg2 arg3 harg3 arg4 harg4 arg5 harg5 arg6 harg6 arg7 harg7 hc0 hc1 x0 x1 x2 xs0 xs1 = k0_pay4 (k0_pay3 x2 x1 xs1) xs0 := by
  unfold out0_C_3
  rw [View.read_writes_eq_canon _ _ _ (cover0_C_3 c i arg2 harg2 arg3 harg3 arg4 harg4 arg5 harg5 arg6 harg6 arg7 harg7 hc0 hc1 x0 x1 x2 xs0 xs1)]
  unfold kernelRun0_C; dsimp only; sl_unfold_words
  rw [View.canon_unit_zero zero3, View.readCov_unit_zero (S := S1x4096) _ zero2]
  simp only [View.readAt_eq_ld, harg4.read_unread, harg3.read_unread, harg7.read_unread, harg6.read_unread,
    View.ld_unit_zero (S := S2048x128) zero2, View.ld_unit_zero (S := S128x4096) zero2, View.ld_unit_zero (S := S1x4096) zero2]

end Cert.KernelIdeal.Pieces

end
-- ==== Proof.Payloads.lean ====
/-
  The kernel body's arithmetic read at an index, over the extended reals:
  the squared-norm row is, at column r, the sum of the squares of row r of the x block;
  the reset row is +∞ everywhere; the running-minimum update is, at column r, the minimum of what the scratch held
  and of ½·‖y_n‖² − ⟨y_n, x_r⟩ over the 2048 rows n of the y block (the inner product taken against the transposed
  x block); and the output block is, everywhere, the sum over the 4096 columns of twice the running minimum plus the
  squared norm.
-/
import proofs.«402168_j45449343926664_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payloads

open Idealize.ShloMosaic Idealize.ShloMosaic.ValueIdx
open Cert.KernelIdeal Cert.KernelIdeal.Gen

/-! ## Two column layouts -/

/-- A vector cast to a column reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along its rows reads, at `(p, c)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The squared-norm row and the reset row -/

/-- Column `r` of the squared-norm row: the sum of the squares of row `r`. -/
theorem pay1_apply (v : Vec Ideal S4096x128 .f32) (r : Fin 4096) :
    k0_pay1 (F := Ideal) v (ix2 (0 : Fin 1) r) = ∑ d : Fin 128, v (ix2 r d) * v (ix2 r d) := by
  unfold k0_pay1
  rw [shapeCast_self]
  refine (transpose_ix2_apply _ _ (0 : Fin 1) r).trans ?_
  refine (shapeCast_a_a1_apply _ _ r (0 : Fin 1)).trans ?_
  refine (Ideal.multiReduction_add_single (mulf v v) 0x00000000#32 reduces_S4096x128_S4096 (.inl rfl) rfl (ix1 r)).trans ?_
  refine Finset.sum_congr rfl fun d _ => ?_
  have e : reduces_S4096x128_S4096.lift (ix1 r) d = ix2 r d := funext fun a => Fin.ext (by
    match a with
    | ⟨0, _⟩ => rfl
    | ⟨1, _⟩ => rfl)
  rw [e]; rfl

/-- The reset row is the +∞ word everywhere. -/
theorem pay2_apply (r : Fin 4096) :
    (k0_pay2 (F := Ideal)) (ix2 (0 : Fin 1) r) = Ideal.ofBits .f32 0x7F800000#32 := by
  unfold k0_pay2
  rw [shapeCast_self]; rfl

/-! ## The body's matrix product -/

theorem lhs_mm_0 (i : S2048x4096.Idx) (q : dot_S2048x128_S128x4096_S2048x4096_1_0_0_1_n_n.contr.Idx) :
    (dot_S2048x128_S128x4096_S2048x4096_1_0_0_1_n_n.lhsIdx i q 0).val = (i 0).val := by
  unfold DotDims.lhsIdx
  rw [dif_neg (show ¬(0 : Fin S2048x128.rank) ∈ dot_S2048x128_S128x4096_S2048x4096_1_0_0_1_n_n.lhsBatch by decide), dif_pos (show (0 : Fin S2048x128.rank) ∈ dot_S2048x128_S128x4096_S2048x4096_1_0_0_1_n_n.lhsNonContracting by decide)]
  rfl
theorem lhs_mm_1 (i : S2048x4096.Idx) (q : dot_S2048x128_S128x4096_S2048x4096_1_0_0_1_n_n.contr.Idx) :
    (dot_S2048x128_S128x4096_S2048x4096_1_0_0_1_n_n.lhsIdx i q 1).val = (q ⟨0, by decide⟩).val :=
  dot_S2048x128_S128x4096_S2048x4096_1_0_0_1_n_n.lhsIdx_val_of_single rfl i q
theorem rhs_mm_0 (i : S2048x4096.Idx) (q : dot_S2048x128_S128x4096_S2048x4096_1_0_0_1_n_n.contr.Idx) :
    (dot_S2048x128_S128x4096_S2048x4096_1_0_0_1_n_n.rhsIdx i q 0).val = (q ⟨0, by decide⟩).val :=
  dot_S2048x128_S128x4096_S2048x4096_1_0_0_1_n_n.rhsIdx_val_of_single rfl i q
theorem rhs_mm_1 (i : S2048x4096.Idx) (q : dot_S2048x128_S128x4096_S2048x4096_1_0_0_1_n_n.contr.Idx) :
    (dot_S2048x128_S128x4096_S2048x4096_1_0_0_1_n_n.rhsIdx i q 1).val = (i 1).val := by
  unfold DotDims.rhsIdx
  rw [dif_neg (show ¬(1 : Fin S128x4096.rank) ∈ dot_S2048x128_S128x4096_S2048x4096_1_0_0_1_n_n.rhsBatch by decide), dif_pos (show (1 : Fin S128x4096.rank) ∈ dot_S2048x128_S128x4096_S2048x4096_1_0_0_1_n_n.rhsNonContracting by decide)]
  rfl

/-- Entry (n, r) of the product into a zero accumulator: the sum over the 128 contracted coordinates. -/
theorem mm_apply (l : FVec Ideal S2048x128 .bf16) (rr : FVec Ideal S128x4096 .bf16) (n : Fin 2048) (r : Fin 4096) :
    matmul dot_S2048x128_S128x4096_S2048x4096_1_0_0_1_n_n none l rr (constant (F := Ideal) S2048x4096 .f32 0x00000000#32) (ix2 n r)
      = ∑ k : Fin 128, l (ix2 n k) * rr (ix2 k r) := by
  simp only [matmul]
  rw [Ideal.matmul_constant_zero_apply, ← Equiv.sum_comp (contrEquiv1 dot_S2048x128_S128x4096_S2048x4096_1_0_0_1_n_n 128 rfl rfl).symm]
  refine Finset.sum_congr rfl fun k _ => ?_
  have hk := contrEquiv1_symm_val dot_S2048x128_S128x4096_S2048x4096_1_0_0_1_n_n 128 rfl rfl k
  have el : dot_S2048x128_S128x4096_S2048x4096_1_0_0_1_n_n.lhsIdx (ix2 n r) ((contrEquiv1 dot_S2048x128_S128x4096_S2048x4096_1_0_0_1_n_n 128 rfl rfl).symm k) = ix2 n k := funext fun a => Fin.ext (by
    match a with
    | ⟨0, _⟩ => exact lhs_mm_0 _ _
    | ⟨1, _⟩ => exact (lhs_mm_1 _ _).trans hk)
  have er : dot_S2048x128_S128x4096_S2048x4096_1_0_0_1_n_n.rhsIdx (ix2 n r) ((contrEquiv1 dot_S2048x128_S128x4096_S2048x4096_1_0_0_1_n_n 128 rfl rfl).symm k) = ix2 k r := funext fun a => Fin.ext (by
    match a with
    | ⟨0, _⟩ => exact (rhs_mm_0 _ _).trans hk
    | ⟨1, _⟩ => exact rhs_mm_1 _ _)
  rw [el, er]

/-! ## The running-minimum update -/

/-- Column `r` after a block: the minimum of what the scratch held and, over the block's rows n, of
    ½·‖y_n‖² − ⟨y_n, x_r⟩ (a fold of `min` from the +∞ word). -/
theorem pay3_apply (v3 : Vec Ideal S2048x128 .f32) (v8 : Vec Ideal S128x4096 .bf16) (v17 : Vec Ideal S1x4096 .f32) (r : Fin 4096) :
    k0_pay3 (F := Ideal) v3 v8 v17 (ix2 (0 : Fin 1) r)
      = min (v17 (ix2 (0 : Fin 1) r)) ((Finset.univ : Finset (Fin 2048)).fold min (Ideal.ofBits .f32 0x7F800000#32)
          (fun n => Ideal.ofBits .f32 0x3F000000#32 * (∑ d : Fin 128, v3 (ix2 n d) * v3 (ix2 n d))
                      - ∑ k : Fin 128, v3 (ix2 n k) * v8 (ix2 k r))) := by
  unfold k0_pay3
  rw [shapeCast_self]
  refine (minimumf_apply _ _ _).trans ?_
  refine congrArg (min _) ?_
  refine (shapeCast_a_1a_apply _ _ (0 : Fin 1) r).trans ?_
  refine (multiReduction_minimumf_eq_fold _ _ reduces_S2048x4096_S4096 (.inl rfl) rfl (ix1 r)).trans ?_
  refine (reduces_S2048x4096_S4096.fold_filter_drop_single _ _ _ (ix1 r)).trans ?_
  refine Finset.fold_congr fun n _ => ?_
  have e : reduces_S2048x4096_S4096.lift (ix1 r) n = ix2 n r := funext fun a => Fin.ext (by
    match a with
    | ⟨0, _⟩ => rfl
    | ⟨1, _⟩ => rfl)
  show (subf _ _) (reduces_S2048x4096_S4096.lift (ix1 r) n) = _
  rw [e]
  refine (subf_apply _ _ _).trans ?_
  refine congrArg₂ (· - ·) ?_ ?_
  · refine (broadcastTo_a1_ab_apply _ _ n r).trans ?_
    refine (mulf_apply _ _ _).trans ?_
    refine congrArg₂ (· * ·) rfl ?_
    refine (shapeCast_a_a1_apply _ _ n (0 : Fin 1)).trans ?_
    refine (Ideal.multiReduction_add_single (mulf v3 v3) 0x00000000#32 reduces_S2048x128_S2048 (.inl rfl) rfl (ix1 n)).trans ?_
    refine Finset.sum_congr rfl fun d _ => ?_
    have e' : reduces_S2048x128_S2048.lift (ix1 n) d = ix2 n d := funext fun a => Fin.ext (by
      match a with
      | ⟨0, _⟩ => rfl
      | ⟨1, _⟩ => rfl)
    rw [e']; rfl
  · refine (mm_apply _ _ n r).trans ?_
    refine Finset.sum_congr rfl fun k _ => ?_
    rw [shapeCast_self]; rfl

/-! ## The output block -/

/-- The 4096 columns of a one-plane, one-row stack are its whole index set. -/
def colEquiv : Fin 4096 ≃ (⟨3, ![1, 1, 4096]⟩ : Shape).Idx where
  toFun r := ix3 (0 : Fin 1) (0 : Fin 1) r
  invFun j := j 2
  left_inv r := rfl
  right_inv j := by
    obtain ⟨a, b, c, rfl⟩ : ∃ (a : Fin 1) (b : Fin 1) (c : Fin 4096), j = ix3 a b c := ⟨j 0, j 1, j 2, eq_ix3 j⟩
    have ha : a = 0 := Fin.eq_zero a
    have hb : b = 0 := Fin.eq_zero b
    subst ha hb; rfl

/-- Every entry of the output block: the sum over the 4096 columns of twice the running minimum plus the squared norm. -/
theorem pay4_apply (v25 v28 : Vec Ideal S1x4096 .f32) (i : S1x8x128.Idx) :
    k0_pay4 (F := Ideal) v25 v28 i
      = ∑ r : Fin 4096, (Ideal.ofBits .f32 0x40000000#32 * v25 (ix2 (0 : Fin 1) r) + v28 (ix2 (0 : Fin 1) r)) := by
  unfold k0_pay4
  refine (broadcast_apply _ _).trans ?_
  unfold extractAt
  refine (shapeCast_apply _ _ _ (ix1 (0 : Fin 1)) ?_).trans ?_
  · rw [Shape.rowMajor_val_one, Shape.rowMajor_val_three]; rfl
  refine (Ideal.multiReduction_add_total _ 0x00000000#32 reduces_S1x1x4096_S1 (fun b => by match b with | ⟨0, _⟩ => rfl) (.inl rfl) rfl (ix1 (0 : Fin 1))).trans ?_
  rw [← Equiv.sum_comp colEquiv]
  refine Finset.sum_congr rfl fun r _ => ?_
  show shapeCast S1x1x4096 _ _ (ix3 (0 : Fin 1) (0 : Fin 1) r) = _
  refine (shapeCast_ab_1ab_apply _ _ (0 : Fin 1) (0 : Fin 1) r).trans ?_
  rfl

end Cert.KernelIdeal.Payloads

end
-- ==== Proof.DistLaw.lean ====
/-
  The distance law of this certificate, free of any program: for two arrays x, y of 8192 rows of 128 extended
  reals, the kernel's sum over the rows q of x of
      2 · min_j (½·‖y_j‖² − ⟨y_j, x_q⟩) + ‖x_q‖²
  (the minimum taken block by block over the rows of y, 2048 rows at a time, the sum taken half by half over
  the rows of x) is the reference's sum over q of  min_j ((‖x_q‖² − 2·⟨x_q, y_j⟩) + ‖y_j‖²),
  when every entry of x and y is a real number: then  2·(½a − b) + s = (s − 2b) + a  term by term, a positive
  scaling and a shift commute with a minimum over a finite nonempty set, and an inner product is symmetric.
  On the extended reals the law needs the entries finite (∞ − ∞ and 0·∞ break it).
-/
import Idealize.ShloMosaic.PureOps.Ideal
import Idealize.ShloMosaic.Lib.ValueIdx

noncomputable section

open scoped BigOperators

namespace Cert.DistLaw

open Idealize.ShloMosaic Idealize.ShloMosaic.ValueIdx

/-- An array of 8192 rows of 128 entries. -/
abbrev SA : Shape := ⟨2, ![8192, 128]⟩

/-- Row `r` of half `a` of the 8192 rows (two halves of 4096). -/
def rowOfHalf (a : Fin 2) (r : Fin 4096) : Fin 8192 := ⟨a.val * 4096 + r.val, by omega⟩

/-- Row `n` of block `j` of the 8192 rows (four blocks of 2048). -/
def rowOfBlock (j : Fin 4) (n : Fin 2048) : Fin 8192 := ⟨j.val * 2048 + n.val, by omega⟩

/-- ‖x_q‖²: the sum of the squares of row `q`. -/
def sq (x : SA.Idx → EReal) (q : Fin 8192) : EReal := ∑ d : Fin 128, x (ix2 q d) * x (ix2 q d)

/-- ⟨x_q, y_j⟩: the inner product of row `q` of `x` with row `j` of `y`. -/
def dot (x y : SA.Idx → EReal) (q j : Fin 8192) : EReal := ∑ d : Fin 128, x (ix2 q d) * y (ix2 j d)

/-- The kernel's term for the pair (q, j): ½·‖y_j‖² − ⟨y_j, x_q⟩. -/
def kterm (x y : SA.Idx → EReal) (q j : Fin 8192) : EReal := ((1 / 2 : ℝ) : EReal) * sq y j - dot y x j q

/-- The reference's term for the pair (q, j): (‖x_q‖² − 2·⟨x_q, y_j⟩) + ‖y_j‖². -/
def rterm (x y : SA.Idx → EReal) (q j : Fin 8192) : EReal := (sq x q - ((2 : ℝ) : EReal) * dot x y q j) + sq y j

/-- The kernel's running minimum for row `q` after the first `k` rows of `y`. -/
def runMin (x y : SA.Idx → EReal) (q : Fin 8192) (k : ℕ) : EReal :=
  (Finset.univ.filter fun j : Fin 8192 => j.val < k).inf (kterm x y q)

/-- A fold of `min` from +∞ is the infimum. -/
theorem fold_min_top_eq_inf {ι : Type*} (s : Finset ι) (f : ι → EReal) : s.fold min (⊤ : EReal) f = s.inf f := rfl

/-- Before any row the running minimum is +∞. -/
theorem runMin_zero (x y : SA.Idx → EReal) (q : Fin 8192) : runMin x y q 0 = ⊤ := by
  simp [runMin]

/-- One block more: the minimum of the running minimum and the block's own minimum (a fold of `min` from +∞ over
    the block's 2048 rows) is the running minimum after the block. -/
theorem runMin_step (x y : SA.Idx → EReal) (q : Fin 8192) (j : Fin 4) :
    min (runMin x y q (j.val * 2048))
        ((Finset.univ : Finset (Fin 2048)).fold min (⊤ : EReal) (fun n => kterm x y q (rowOfBlock j n)))
      = runMin x y q ((j.val + 1) * 2048) := by
  rw [fold_min_top_eq_inf]
  unfold runMin
  apply le_antisymm
  · -- every row below (j+1)·2048 is either below j·2048 or a row of block j
    refine Finset.le_inf fun i hi => ?_
    have hi' : i.val < (j.val + 1) * 2048 := (Finset.mem_filter.1 hi).2
    by_cases hlt : i.val < j.val * 2048
    · exact le_trans (min_le_left _ _) (Finset.inf_le (Finset.mem_filter.2 ⟨Finset.mem_univ _, hlt⟩))
    · have hn : i.val - j.val * 2048 < 2048 := by omega
      have hrow : rowOfBlock j ⟨i.val - j.val * 2048, hn⟩ = i := by
        apply Fin.ext
        show j.val * 2048 + (i.val - j.val * 2048) = i.val
        omega
      refine le_trans (min_le_right _ _) ?_
      have := Finset.inf_le (f := fun n => kterm x y q (rowOfBlock j n)) (Finset.mem_univ (⟨i.val - j.val * 2048, hn⟩ : Fin 2048))
      rwa [hrow] at this
  · refine le_min ?_ ?_
    · -- fewer rows, a larger minimum
      refine Finset.inf_mono fun i hi => ?_
      have hi' : i.val < j.val * 2048 := (Finset.mem_filter.1 hi).2
      exact Finset.mem_filter.2 ⟨Finset.mem_univ _, by omega⟩
    · refine Finset.le_inf fun n _ => ?_
      refine Finset.inf_le (Finset.mem_filter.2 ⟨Finset.mem_univ _, ?_⟩)
      show j.val * 2048 + n.val < (j.val + 1) * 2048
      have := n.isLt
      omega

/-- What the kernel leaves for half `a`: the sum over the half's rows of 2·(the minimum over all rows of y) + ‖x_q‖². -/
def kerPart (x y : SA.Idx → EReal) (a : Fin 2) : EReal :=
  ∑ r : Fin 4096, (((2 : ℝ) : EReal) * runMin x y (rowOfHalf a r) 8192 + sq x (rowOfHalf a r))

/-- The kernel's total: the two halves added. -/
def kerSum (x y : SA.Idx → EReal) : EReal := ∑ a : Fin 2, kerPart x y a

/-- The reference's total: over every row of x, the minimum (a fold of `min` from +∞) over every row of y. -/
def refSum (x y : SA.Idx → EReal) : EReal :=
  ∑ q : Fin 8192, (Finset.univ : Finset (Fin 8192)).fold min (⊤ : EReal) (rterm x y q)

/-! ## The law on real arrays -/

/-- A finite sum of real numbers, read in the extended reals, is the sum of the readings. -/
theorem coe_sum_real {ι : Type*} (s : Finset ι) (g : ι → ℝ) :
    ∑ i ∈ s, ((g i : ℝ) : EReal) = ((∑ i ∈ s, g i : ℝ) : EReal) := by
  classical
  refine Finset.induction_on s (by simp) ?_
  intro i t hi ih
  rw [Finset.sum_insert hi, Finset.sum_insert hi, ih, EReal.coe_add]

/-- ‖a_q‖² over the reals. -/
def sqR (a : SA.Idx → ℝ) (q : Fin 8192) : ℝ := ∑ d : Fin 128, a (ix2 q d) * a (ix2 q d)

/-- ⟨a_q, b_j⟩ over the reals. -/
def dotR (a b : SA.Idx → ℝ) (q j : Fin 8192) : ℝ := ∑ d : Fin 128, a (ix2 q d) * b (ix2 j d)

/-- The inner product is symmetric. -/
theorem dotR_comm (a b : SA.Idx → ℝ) (q j : Fin 8192) : dotR a b q j = dotR b a j q :=
  Finset.sum_congr rfl fun _ _ => mul_comm _ _

theorem sq_coe (a : SA.Idx → ℝ) (q : Fin 8192) :
    sq (fun i => ((a i : ℝ) : EReal)) q = ((sqR a q : ℝ) : EReal) := by
  unfold sq sqR
  rw [← coe_sum_real]
  exact Finset.sum_congr rfl fun d _ => (EReal.coe_mul _ _).symm

theorem dot_coe (a b : SA.Idx → ℝ) (q j : Fin 8192) :
    dot (fun i => ((a i : ℝ) : EReal)) (fun i => ((b i : ℝ) : EReal)) q j = ((dotR a b q j : ℝ) : EReal) := by
  unfold dot dotR
  rw [← coe_sum_real]
  exact Finset.sum_congr rfl fun d _ => (EReal.coe_mul _ _).symm

/-- The kernel's term on real arrays is the real number ½·‖b_j‖² − ⟨b_j, a_q⟩. -/
theorem kterm_coe (a b : SA.Idx → ℝ) (q j : Fin 8192) :
    kterm (fun i => ((a i : ℝ) : EReal)) (fun i => ((b i : ℝ) : EReal)) q j
      = ((1 / 2 * sqR b j - dotR b a j q : ℝ) : EReal) := by
  unfold kterm
  rw [sq_coe, dot_coe, ← EReal.coe_mul, ← EReal.coe_sub]

/-- The reference's term on real arrays is the real number (‖a_q‖² − 2·⟨a_q, b_j⟩) + ‖b_j‖². -/
theorem rterm_coe (a b : SA.Idx → ℝ) (q j : Fin 8192) :
    rterm (fun i => ((a i : ℝ) : EReal)) (fun i => ((b i : ℝ) : EReal)) q j
      = ((sqR a q - 2 * dotR a b q j + sqR b j : ℝ) : EReal) := by
  unfold rterm
  rw [sq_coe, sq_coe, dot_coe, ← EReal.coe_mul, ← EReal.coe_sub, ← EReal.coe_add]

/-- A minimum over a finite nonempty set of real numbers is attained, so doubling and a shift pass through it. -/
theorem inf_coe_affine {ι : Type*} (s : Finset ι) (hs : s.Nonempty) (g : ι → ℝ) (c : ℝ) :
    ((2 : ℝ) : EReal) * s.inf (fun j => ((g j : ℝ) : EReal)) + (c : EReal)
      = s.inf (fun j => ((2 * g j + c : ℝ) : EReal)) := by
  obtain ⟨j0, hj0, hmin⟩ := Finset.exists_min_image s g hs
  have h1 : s.inf (fun j => ((g j : ℝ) : EReal)) = ((g j0 : ℝ) : EReal) :=
    le_antisymm (Finset.inf_le hj0) (Finset.le_inf fun j hj => EReal.coe_le_coe_iff.2 (hmin j hj))
  have h2 : s.inf (fun j => ((2 * g j + c : ℝ) : EReal)) = ((2 * g j0 + c : ℝ) : EReal) :=
    le_antisymm (Finset.inf_le hj0)
      (Finset.le_inf fun j hj => EReal.coe_le_coe_iff.2 (by have := hmin j hj; linarith))
  rw [h1, h2, EReal.coe_add, EReal.coe_mul]

/-- After all 8192 rows the running minimum is the minimum over every row. -/
theorem runMin_all (x y : SA.Idx → EReal) (q : Fin 8192) :
    runMin x y q 8192 = (Finset.univ : Finset (Fin 8192)).inf (kterm x y q) := by
  unfold runMin
  rw [Finset.filter_true_of_mem fun j _ => j.isLt]

/-- Row by row: 2·min_j(½·‖b_j‖² − ⟨b_j, a_q⟩) + ‖a_q‖² = min_j((‖a_q‖² − 2·⟨a_q, b_j⟩) + ‖b_j‖²). -/
theorem row_law (a b : SA.Idx → ℝ) (q : Fin 8192) :
    ((2 : ℝ) : EReal) * runMin (fun i => ((a i : ℝ) : EReal)) (fun i => ((b i : ℝ) : EReal)) q 8192
        + sq (fun i => ((a i : ℝ) : EReal)) q
      = (Finset.univ : Finset (Fin 8192)).fold min (⊤ : EReal)
          (rterm (fun i => ((a i : ℝ) : EReal)) (fun i => ((b i : ℝ) : EReal)) q) := by
  rw [runMin_all, fold_min_top_eq_inf, sq_coe]
  have hk : kterm (fun i => ((a i : ℝ) : EReal)) (fun i => ((b i : ℝ) : EReal)) q
      = fun j => ((1 / 2 * sqR b j - dotR b a j q : ℝ) : EReal) := funext fun j => kterm_coe a b q j
  have hr : rterm (fun i => ((a i : ℝ) : EReal)) (fun i => ((b i : ℝ) : EReal)) q
      = fun j => ((2 * (1 / 2 * sqR b j - dotR b a j q) + sqR a q : ℝ) : EReal) := funext fun j => by
    rw [rterm_coe, dotR_comm a b q j]
    congr 1
    ring
  rw [hk, hr]
  exact inf_coe_affine Finset.univ ⟨q, Finset.mem_univ q⟩ _ _

/-- The two halves of 4096 rows are all 8192 rows. -/
theorem sum_halves (f : Fin 8192 → EReal) :
    ∑ a : Fin 2, ∑ r : Fin 4096, f (rowOfHalf a r) = ∑ q : Fin 8192, f q := by
  refine (Fintype.sum_prod_type' fun a r => f (rowOfHalf a r)).symm.trans ?_
  refine Fintype.sum_bijective (fun p : Fin 2 × Fin 4096 => rowOfHalf p.1 p.2) ⟨?_, ?_⟩ _ _ fun _ => rfl
  · rintro ⟨a, r⟩ ⟨a', r'⟩ h
    have h' : a.val * 4096 + r.val = a'.val * 4096 + r'.val := congrArg Fin.val h
    have hr := r.isLt
    have hr' := r'.isLt
    have h1 : a.val = a'.val := by omega
    have h2 : r.val = r'.val := by omega
    exact Prod.ext (Fin.ext h1) (Fin.ext h2)
  · intro q
    have hq := q.isLt
    refine ⟨(⟨q.val / 4096, by omega⟩, ⟨q.val % 4096, by omega⟩), Fin.ext ?_⟩
    show q.val / 4096 * 4096 + q.val % 4096 = q.val
    omega

/-- THE LAW: on arrays of real numbers the kernel's total is the reference's. -/
theorem kerSum_eq_refSum (x y : SA.Idx → EReal) (hx : ∀ i, ∃ r : ℝ, x i = (r : EReal)) (hy : ∀ i, ∃ r : ℝ, y i = (r : EReal)) :
    kerSum x y = refSum x y := by
  choose a ha using hx
  choose b hb using hy
  obtain rfl : x = fun i => ((a i : ℝ) : EReal) := funext ha
  obtain rfl : y = fun i => ((b i : ℝ) : EReal) := funext hb
  unfold kerSum kerPart refSum
  rw [sum_halves fun q => ((2 : ℝ) : EReal) * runMin (fun i => ((a i : ℝ) : EReal)) (fun i => ((b i : ℝ) : EReal)) q 8192
        + sq (fun i => ((a i : ℝ) : EReal)) q]
  exact Finset.sum_congr rfl fun q _ => row_law a b q

/-! ## The float words this certificate's law evaluates -/

/-- The word of `0.5` denotes the real ½. -/
theorem ofBits_half : Ideal.ofBits .f32 0x3F000000#32 = ((1 / 2 : ℝ) : EReal) := by
  simp [Ideal.ofBits, Ideal.ieee, -EReal.coe_mul]; norm_num

/-- The word of `2.0` denotes the real 2. -/
theorem ofBits_two : Ideal.ofBits .f32 0x40000000#32 = ((2 : ℝ) : EReal) := by
  simp [Ideal.ofBits, Ideal.ieee, -EReal.coe_mul]; norm_num

/-- The word of +∞ denotes ⊤. -/
theorem ofBits_inf : Ideal.ofBits .f32 0x7F800000#32 = (⊤ : EReal) := by
  simp [Ideal.ofBits, Ideal.ieee]

/-- An entry whose absolute value is below +∞ is a real number. -/
theorem real_of_abs_lt_top (v : EReal) (h : max v (-v) < ⊤) : ∃ r : ℝ, v = (r : EReal) := by
  induction v using EReal.rec with
  | bot => simp at h
  | coe r => exact ⟨r, rfl⟩
  | top => simp at h

end Cert.DistLaw

end
-- ==== Proof.Blocks.lean ====
/-
  The input blocks of the kernel region, read at an index. A grid point t = 4·a + j is block j of half a:
  the x block at t is rows 4096·a … of x, the transposed block the matching columns of the transposed x, the y block
  rows 2048·j … of y; and the transposed array the region reads is x transposed (the change of float format is the
  identity on the extended reals).
-/
import proofs.«402168_j45449343926664_3_alg».proof.Proof.Gen.KernelIdeal.Frame
import proofs.«402168_j45449343926664_3_alg».proof.Proof.DistLaw
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Blocks

open Idealize.ShloMosaic Idealize.ShloMosaic.TcCoe Idealize.SL.Sem Idealize.ShloMosaic.ValueIdx Idealize.ShloMosaic.StableHlo
open Cert.KernelIdeal Cert.KernelIdeal.Gen
open Cert.DistLaw (rowOfHalf rowOfBlock)

variable (m : (ℓ : Loc nD τ sig) → Buf (Elt Ideal) ℓ)

/-- The half of x a grid point works on. -/
def halfOf (t : Fin cfg0.N) : Fin 2 := ⟨t.val / 4, by have := t.isLt; have hN : cfg0.N = 8 := N_0; omega⟩

/-- The block of y a grid point works on. -/
def blockOf (t : Fin cfg0.N) : Fin 4 := ⟨t.val % 4, Nat.mod_lt _ (by decide)⟩

/-- The argument arrays as launched. -/
abbrev xarr (c : Dev nD) : FVec Ideal S8192x128 .f32 := m ((c : Thread nD τ).loc main_arg0)
abbrev yarr (c : Dev nD) : FVec Ideal S8192x128 .f32 := m ((c : Thread nD τ).loc main_arg1)

/-- The three input blocks at a point, at their literal types. -/
abbrev xblk (c : Dev nD) (t : Fin cfg0.N) : Vec Ideal S4096x128 .f32 := iblk m c 0 t
abbrev xtblk (c : Dev nD) (t : Fin cfg0.N) : Vec Ideal S128x4096 .bf16 := iblk m c 1 t
abbrev yblk (c : Dev nD) (t : Fin cfg0.N) : Vec Ideal S2048x128 .f32 := iblk m c 2 t

/-- The windows' block indices over the grid. -/
theorem idx_x : ∀ t : Fin cfg0.N, win0_0.index t 0 = t.val / 4 ∧ win0_0.index t 1 = 0 :=
  (by decide +kernel : ∀ t : Fin grid0.N, win0_0.index t 0 = t.val / 4 ∧ win0_0.index t 1 = 0)
theorem idx_xt : ∀ t : Fin cfg0.N, win0_1.index t 0 = 0 ∧ win0_1.index t 1 = t.val / 4 :=
  (by decide +kernel : ∀ t : Fin grid0.N, win0_1.index t 0 = 0 ∧ win0_1.index t 1 = t.val / 4)
theorem idx_y : ∀ t : Fin cfg0.N, win0_2.index t 0 = t.val % 4 ∧ win0_2.index t 1 = 0 :=
  (by decide +kernel : ∀ t : Fin grid0.N, win0_2.index t 0 = t.val % 4 ∧ win0_2.index t 1 = 0)

/-- Row r of the x block at t is row r of its half of x. -/
theorem xblk_apply (c : Dev nD) (t : Fin cfg0.N) (r : Fin 4096) (d : Fin 128) :
    xblk m c t (ix2 r d) = xarr m c (ix2 (rowOfHalf (halfOf t) r) d) := by
  show iblk m c 0 t (ix2 r d) = _
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 4096 + 1 * r.val = t.val / 4 * 4096 + r.val; rw [(idx_x t).1]; omega
  | ⟨1, _⟩ => show win0_0.index t 1 * 128 + 1 * d.val = d.val; rw [(idx_x t).2]; omega

/-- Row n of the y block at t is row n of its block of y. -/
theorem yblk_apply (c : Dev nD) (t : Fin cfg0.N) (n : Fin 2048) (d : Fin 128) :
    yblk m c t (ix2 n d) = yarr m c (ix2 (rowOfBlock (blockOf t) n) d) := by
  show iblk m c 2 t (ix2 n d) = _
  unfold iblk
  rw [View.read_apply]
  show V m c main_arg1 _ = _
  rw [V_main_arg1]
  refine congrArg (m ((c : Thread nD τ).loc main_arg1)) (funext fun a => Fin.ext ?_)
  match a with
  | ⟨0, _⟩ => show win0_2.index t 0 * 2048 + 1 * n.val = t.val % 4 * 2048 + n.val; rw [(idx_y t).1]; omega
  | ⟨1, _⟩ => show win0_2.index t 1 * 128 + 1 * d.val = d.val; rw [(idx_y t).2]; omega

/-- The transposed array the region reads: x transposed, its float format changed. -/
theorem xt_eq (c : Dev nD) :
    V m c main_v1
      = (truncf (F := Idealize.ShloMosaic.Ideal) .bf16 (transpose S128x8192 [1, 0] (xarr m c) transposes_S8192x128_S128x8192_1_0) bitsLt_bf16_f32 : FVec Idealize.ShloMosaic.Ideal S128x8192 .bf16) := by
  show StableHlo.after hostOps0 (fun b => m (c, b)) (Proc.devRef .tc main_v1) = _
  after_results

/-- Column r of the transposed block at t is row r of the half of x. -/
theorem xtblk_apply (c : Dev nD) (t : Fin cfg0.N) (d : Fin 128) (r : Fin 4096) :
    xtblk m c t (ix2 d r) = xarr m c (ix2 (rowOfHalf (halfOf t) r) d) := by
  show iblk m c 1 t (ix2 d r) = _
  unfold iblk
  rw [View.read_apply]
  show V m c main_v1 _ = _
  rw [xt_eq]
  show transpose S128x8192 [1, 0] (xarr m c) transposes_S8192x128_S128x8192_1_0 (((cfg0.win 1).blk t).view.emb (ix2 d r)) = _
  refine transpose_apply [1, 0] (xarr m c) transposes_S8192x128_S128x8192_1_0 _ (ix2 (rowOfHalf (halfOf t) r) d) fun b => ?_
  match b with
  | ⟨0, _⟩ => show d.val = win0_1.index t 0 * 128 + 1 * d.val; rw [(idx_xt t).1]; omega
  | ⟨1, _⟩ => show t.val / 4 * 4096 + r.val = win0_1.index t 1 * 4096 + 1 * r.val; rw [(idx_xt t).2]; omega

end Cert.KernelIdeal.Blocks

end
-- ==== Proof.Acc.lean ====
/-
  What the two scratch rows and the output block hold after each grid point, over the extended reals.
  A point t = 4·a + j is block j of half a. After it, column r of the squared-norm row is ‖x_q‖² for q the r-th row
  of half a, and column r of the running-minimum row is the minimum of ½·‖y_n‖² − ⟨y_n, x_q⟩ over the first
  (j + 1)·2048 rows n of y: at j = 0 the row is reset to +∞ and updated, at j > 0 updated from what the point before
  left. At j = 3 the output block is, everywhere, the sum over r of twice the running minimum plus ‖x_q‖²: the
  kernel's part for half a.
-/
import proofs.«402168_j45449343926664_3_alg».proof.Proof.Pieces
import proofs.«402168_j45449343926664_3_alg».proof.Proof.Payloads
import proofs.«402168_j45449343926664_3_alg».proof.Proof.Blocks
import proofs.«402168_j45449343926664_3_alg».proof.Proof.DistLaw

set_option maxRecDepth 16384

noncomputable section

open scoped BigOperators

namespace Cert.KernelIdeal.Acc

open Idealize.ShloMosaic Idealize.ShloMosaic.TcCoe Idealize.SL.Sem Idealize.ShloMosaic.ValueIdx
open Cert.KernelIdeal Cert.KernelIdeal.Gen Cert.KernelIdeal.Blocks
open Cert.DistLaw (rowOfHalf rowOfBlock sq dot kterm runMin kerPart)

variable (m : (ℓ : Loc nD τ sig) → Buf (Elt Idealize.ShloMosaic.Ideal) ℓ)

/-! ## What each case leaves at a point, as the body's arithmetic of the point's blocks -/

theorem first_sq (c : Dev nD) (t : Fin cfg0.N) (h0 : t.val % 4 = 0) (h1 : ¬t.val % 4 = 3) :
    (outsAt0 m c t.val t.isLt).2.1 = k0_pay1 (xblk m c t) := by
  rw [outsAt0_A m c t h0 h1]; dsimp only
  exact Pieces.sout_A_0 (F := Idealize.ShloMosaic.Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

theorem first_min (c : Dev nD) (t : Fin cfg0.N) (h0 : t.val % 4 = 0) (h1 : ¬t.val % 4 = 3) :
    (outsAt0 m c t.val t.isLt).2.2 = k0_pay3 (yblk m c t) (xtblk m c t) (k0_pay2 (F := Idealize.ShloMosaic.Ideal)) := by
  rw [outsAt0_A m c t h0 h1]; dsimp only
  exact Pieces.sout_A_1 (F := Idealize.ShloMosaic.Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk m c 0 t) (iblk m c 1 t) (iblk m c 2 t)

theorem mid_sq (c : Dev nD) (t : Fin cfg0.N) (h0 : ¬t.val % 4 = 0) (h1 : ¬t.val % 4 = 3) :
    (outsAt0 m c t.val t.isLt).2.1 = (outsAt0 m c (t.val - 1) (Nat.lt_of_le_of_lt (Nat.sub_le _ _) t.isLt)).2.1 := by
  rw [outsAt0_B m c t h0 h1]; dsimp only; rfl

theorem mid_min (c : Dev nD) (t : Fin cfg0.N) (h0 : ¬t.val % 4 = 0) (h1 : ¬t.val % 4 = 3) :
    (outsAt0 m c t.val t.isLt).2.2 = k0_pay3 (yblk m c t) (xtblk m c t) (outsAt0 m c (t.val - 1) (Nat.lt_of_le_of_lt (Nat.sub_le _ _) t.isLt)).2.2 := by
  rw [outsAt0_B m c t h0 h1]; dsimp only
  exact Pieces.sout_B_1 (F := Idealize.ShloMosaic.Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

theorem last_sq (c : Dev nD) (t : Fin cfg0.N) (h0 : ¬t.val % 4 = 0) (h1 : t.val % 4 = 3) :
    (outsAt0 m c t.val t.isLt).2.1 = (outsAt0 m c (t.val - 1) (Nat.lt_of_le_of_lt (Nat.sub_le _ _) t.isLt)).2.1 := by
  rw [outsAt0_C m c t h0 h1]; dsimp only; rfl

theorem last_min (c : Dev nD) (t : Fin cfg0.N) (h0 : ¬t.val % 4 = 0) (h1 : t.val % 4 = 3) :
    (outsAt0 m c t.val t.isLt).2.2 = k0_pay3 (yblk m c t) (xtblk m c t) (outsAt0 m c (t.val - 1) (Nat.lt_of_le_of_lt (Nat.sub_le _ _) t.isLt)).2.2 := by
  rw [outsAt0_C m c t h0 h1]; dsimp only
  exact Pieces.sout_C_1 (F := Idealize.ShloMosaic.Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

theorem last_out (c : Dev nD) (t : Fin cfg0.N) (h0 : ¬t.val % 4 = 0) (h1 : t.val % 4 = 3) :
    (outsAt0 m c t.val t.isLt).1 = k0_pay4 (k0_pay3 (yblk m c t) (xtblk m c t) (outsAt0 m c (t.val - 1) (Nat.lt_of_le_of_lt (Nat.sub_le _ _) t.isLt)).2.2) (outsAt0 m c (t.val - 1) (Nat.lt_of_le_of_lt (Nat.sub_le _ _) t.isLt)).2.1 := by
  rw [outsAt0_C m c t h0 h1]; dsimp only
  exact Pieces.out_C_3 (F := Idealize.ShloMosaic.Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2

/-! ## The running-minimum update, through the blocks -/

/-- The update at point t, column r: the minimum of what the row held and of the kernel's term over the point's
    block of y, for the r-th row of the point's half of x. -/
theorem update_apply (c : Dev nD) (t : Fin cfg0.N) (prev : Vec Idealize.ShloMosaic.Ideal S1x4096 .f32) (r : Fin 4096) :
    k0_pay3 (F := Idealize.ShloMosaic.Ideal) (yblk m c t) (xtblk m c t) prev (ix2 (0 : Fin 1) r)
      = min (prev (ix2 (0 : Fin 1) r))
          ((Finset.univ : Finset (Fin 2048)).fold min (⊤ : EReal)
            (fun n => kterm (xarr m c) (yarr m c) (rowOfHalf (halfOf t) r) (rowOfBlock (blockOf t) n))) := by
  refine (Payloads.pay3_apply (yblk m c t) (xtblk m c t) prev r).trans ?_
  rw [Cert.DistLaw.ofBits_inf, Cert.DistLaw.ofBits_half]
  refine congrArg (min _) (Finset.fold_congr fun n _ => ?_)
  unfold Cert.DistLaw.kterm Cert.DistLaw.sq Cert.DistLaw.dot
  refine congrArg₂ (· - ·) (congrArg (_ * ·) (Finset.sum_congr rfl fun d _ => ?_)) (Finset.sum_congr rfl fun k _ => ?_)
  · rw [yblk_apply]
  · rw [yblk_apply, xtblk_apply]

/-! ## The invariant -/

/-- After point t: the squared norms of the half's rows, and the running minimum over the first (j + 1) blocks. -/
def Holds (c : Dev nD) (n : ℕ) (hn : n < cfg0.N) : Prop :=
  ∀ r : Fin 4096,
    (outsAt0 m c n hn).2.1 (ix2 (0 : Fin 1) r) = sq (xarr m c) (rowOfHalf (halfOf ⟨n, hn⟩) r)
    ∧ (outsAt0 m c n hn).2.2 (ix2 (0 : Fin 1) r)
        = runMin (xarr m c) (yarr m c) (rowOfHalf (halfOf ⟨n, hn⟩) r) ((n % 4 + 1) * 2048)

/-- The first block of a half. -/
theorem holds_first (c : Dev nD) (t : Fin cfg0.N) (h0 : t.val % 4 = 0) : Holds m c t.val t.isLt := by
  have h1 : ¬t.val % 4 = 3 := by omega
  intro r
  refine ⟨?_, ?_⟩
  · rw [first_sq m c t h0 h1]
    refine (Payloads.pay1_apply (xblk m c t) r).trans ?_
    unfold Cert.DistLaw.sq
    refine Finset.sum_congr rfl fun d _ => ?_
    rw [xblk_apply]
  · rw [first_min m c t h0 h1]
    refine (update_apply m c t _ r).trans ?_
    rw [Payloads.pay2_apply, Cert.DistLaw.ofBits_inf]
    have hs := Cert.DistLaw.runMin_step (xarr m c) (yarr m c) (rowOfHalf (halfOf t) r) (blockOf t)
    rw [show (blockOf t).val = 0 from h0, Nat.zero_mul, Cert.DistLaw.runMin_zero] at hs
    rw [h0]
    exact hs

/-- A later block, from the point before. -/
theorem holds_next (c : Dev nD) (t : Fin cfg0.N) (h0 : ¬t.val % 4 = 0)
    (ih : Holds m c (t.val - 1) (Nat.lt_of_le_of_lt (Nat.sub_le _ _) t.isLt)) : Holds m c t.val t.isLt := by
  intro r
  have hhalf : halfOf ⟨t.val - 1, Nat.lt_of_le_of_lt (Nat.sub_le _ _) t.isLt⟩ = halfOf t := Fin.ext (by
    show (t.val - 1) / 4 = t.val / 4
    omega)
  have hprev := ih r
  rw [hhalf] at hprev
  have hj : (t.val - 1) % 4 + 1 = (blockOf t).val := by show (t.val - 1) % 4 + 1 = t.val % 4; omega
  have hs := Cert.DistLaw.runMin_step (xarr m c) (yarr m c) (rowOfHalf (halfOf t) r) (blockOf t)
  have hupd : k0_pay3 (F := Idealize.ShloMosaic.Ideal) (yblk m c t) (xtblk m c t) (outsAt0 m c (t.val - 1) (Nat.lt_of_le_of_lt (Nat.sub_le _ _) t.isLt)).2.2 (ix2 (0 : Fin 1) r)
      = runMin (xarr m c) (yarr m c) (rowOfHalf (halfOf t) r) ((t.val % 4 + 1) * 2048) := by
    refine (update_apply m c t _ r).trans ?_
    rw [hprev.2, hj]
    exact hs
  by_cases h1 : t.val % 4 = 3
  · refine ⟨?_, ?_⟩
    · rw [last_sq m c t h0 h1]; exact hprev.1
    · rw [last_min m c t h0 h1]; exact hupd
  · refine ⟨?_, ?_⟩
    · rw [mid_sq m c t h0 h1]; exact hprev.1
    · rw [mid_min m c t h0 h1]; exact hupd

/-- At every point. -/
theorem holds (c : Dev nD) : ∀ (n : ℕ) (hn : n < cfg0.N), Holds m c n hn
  | 0, hn => holds_first m c ⟨0, hn⟩ rfl
  | n + 1, hn => by
    by_cases h0 : (n + 1) % 4 = 0
    · exact holds_first m c ⟨n + 1, hn⟩ h0
    · exact holds_next m c ⟨n + 1, hn⟩ h0 (holds c n (Nat.lt_of_succ_lt hn))

/-! ## The output block at a half's last point -/

/-- At the last block of a half every entry of the output block is the kernel's part for the half. -/
theorem out_apply (c : Dev nD) (t : Fin cfg0.N) (h1 : t.val % 4 = 3) (i : S1x8x128.Idx) :
    (outsAt0 m c t.val t.isLt).1 i = kerPart (xarr m c) (yarr m c) (halfOf t) := by
  have h0 : ¬t.val % 4 = 0 := by omega
  rw [last_out m c t h0 h1, ← last_min m c t h0 h1, ← last_sq m c t h0 h1]
  refine (Payloads.pay4_apply _ _ i).trans ?_
  unfold kerPart
  refine Finset.sum_congr rfl fun r _ => ?_
  have h := holds m c t.val t.isLt r
  rw [h.1, h.2, Cert.DistLaw.ofBits_two, h1]

end Cert.KernelIdeal.Acc

end
-- ==== Proof.Final.lean ====
/-
  The kernel's result array after the region: entry (a, b, l) is the kernel's part for half a, for every b and l.
  The output block is written back only at the last block of each half (points 3 and 7), where it holds that part
  everywhere; block a of the array is written by point 4·a + 3, and the two blocks cover the array.
-/
import proofs.«402168_j45449343926664_3_alg».proof.Proof.Acc

set_option maxRecDepth 16384

noncomputable section

namespace Cert.KernelIdeal.Final

open Idealize.ShloMosaic Idealize.ShloMosaic.TcCoe Idealize.SL.Sem Idealize.ShloMosaic.ValueIdx
open Cert.KernelIdeal Cert.KernelIdeal.Gen Cert.KernelIdeal.Blocks
open Cert.DistLaw (kerPart)

variable (m : (ℓ : Loc nD τ sig) → Buf (Elt Idealize.ShloMosaic.Ideal) ℓ)

/-- The result array the region leaves: the half's part, on every entry of the half's block. -/
def result (c : Dev nD) : Buf (Elt Idealize.ShloMosaic.Ideal) ((cfg0.win 3).arr.view.loc (c.tc : Thread nD τ)) :=
  fun i => kerPart (xarr m c) (yarr m c) ⟨(i 0).val, (i 0).isLt⟩

/-- The output window's block index over the grid: the half, on the first axis. -/
theorem idx_o : ∀ t : Fin cfg0.N, win0_3.index t 0 = t.val / 4 ∧ win0_3.index t 1 = 0 ∧ win0_3.index t 2 = 0 :=
  (by decide +kernel : ∀ t : Fin grid0.N, win0_3.index t 0 = t.val / 4 ∧ win0_3.index t 1 = 0 ∧ win0_3.index t 2 = 0)

/-- No block of the output window is cut at the array's end. -/
theorem xsize_o : ∀ t : Fin cfg0.N, win0_3.xsize (grid0.coords t) 0 = 1 ∧ win0_3.xsize (grid0.coords t) 1 = 8 ∧ win0_3.xsize (grid0.coords t) 2 = 128 :=
  (by decide +kernel : ∀ t : Fin grid0.N, win0_3.xsize (grid0.coords t) 0 = 1 ∧ win0_3.xsize (grid0.coords t) 1 = 8 ∧ win0_3.xsize (grid0.coords t) 2 = 128)

/-- What a write-back writes is the block of the result array it writes to. -/
theorem flushed_eq (c : Dev nD) (t : Fin cfg0.N) (hf : (cfg0.win 3).flush t = true) :
    (dats m 0 c).flushed 3 t = ((cfg0.win 3).blk t).view.read (Elt Idealize.ShloMosaic.Ideal) (result m c) := by
  have h3 : t.val % 4 = 3 := (flush0_3 t).mp hf
  show (cfg0.win 3).cut (grid0.coords t) ((dats m 0 c).after 3 t) = _
  rw [after0_3]
  funext y
  rw [View.read_apply]
  show (outsAt0 m c t.val t.isLt).1 _ = kerPart (xarr m c) (yarr m c) _
  rw [Acc.out_apply m c t h3]
  refine congrArg (kerPart (xarr m c) (yarr m c)) (Fin.ext ?_)
  show t.val / 4 = win0_3.index t 0 * 1 + 1 * (y 0).val
  have hy : (y 0).val < win0_3.xsize (grid0.coords t) 0 := (y 0).isLt
  rw [(xsize_o t).1] at hy
  rw [(idx_o t).1]; omega

/-- Every entry of the result array lies in the block the last point of its half writes back. -/
theorem cover (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 8 := N_0
  have h0 : (i 0 : Nat) < 2 := (i 0).isLt
  have h1 : (i 1 : Nat) < 8 := (i 1).isLt
  have h2 : (i 2 : Nat) < 128 := (i 2).isLt
  let t : Fin cfg0.N := ⟨4 * (i 0 : Nat) + 3, by omega⟩
  have ht : t.val = 4 * (i 0 : Nat) + 3 := rfl
  refine ⟨t, (flush0_3 t).mpr (by rw [ht]; omega), ?_⟩
  show i ∈ ((View.whole main_v2).slice (win0_3.rect t)).set
  rw [View.set_slice_whole, Rect.mem_set_unit]
  intro a
  match a with
  | ⟨0, _⟩ =>
    show win0_3.index t 0 * 1 ≤ (i 0 : Nat) ∧ (i 0 : Nat) < win0_3.index t 0 * 1 + win0_3.xsize (grid0.coords t) 0
    rw [(idx_o t).1, (xsize_o t).1, ht]; omega
  | ⟨1, _⟩ =>
    show win0_3.index t 1 * 8 ≤ (i 1 : Nat) ∧ (i 1 : Nat) < win0_3.index t 1 * 8 + win0_3.xsize (grid0.coords t) 1
    rw [(idx_o t).2.1, (xsize_o t).2.1]; omega
  | ⟨2, _⟩ =>
    show win0_3.index t 2 * 128 ≤ (i 2 : Nat) ∧ (i 2 : Nat) < win0_3.index t 2 * 128 + win0_3.xsize (grid0.coords t) 2
    rw [(idx_o t).2.2, (xsize_o t).2.2]; omega

/-- So the result array ends holding each half's part on the half's block. -/
theorem final (c : Dev nD) :
    (dats m 0 c).arrAt 3 cfg0.N = fun i => kerPart (xarr m c) (yarr m c) ⟨(i 0).val, (i 0).isLt⟩ :=
  (dats m 0 c).arrAt_eq_of_cover 3 (result m c) (fun t hf => flushed_eq m c t hf) (cover c)

end Cert.KernelIdeal.Final

end
-- ==== Proof.Tail.lean ====
/-
  The host operations after the kernel region, carried as one function of the two argument arrays and of the one
  scalar in which the two programs differ: both return (1·mean_loss + 1·(s / 8192)) + 1·disp_loss, the reference with
  s its sum of row minima, the kernel with s the sum of the two halves its region leaves.
-/
import proofs.«402168_j45449343926664_3_alg».proof.Proof.Gen.KernelIdeal.Frame
import proofs.«402168_j45449343926664_3_alg».proof.Proof.Gen.ReferenceIdeal.Read
import proofs.«402168_j45449343926664_3_alg».proof.Proof.DistLaw
import Idealize.ShloMosaic.Lib.StableHlo.Run
import Idealize.ShloMosaic.Lib.Pipeline.Value
import Idealize.ShloMosaic.PureOps.Ideal.Laws
import Idealize.ShloMosaic.Lib.ValueIdx
import Idealize.ShloMosaic.Lib.ValueIdxRank1

noncomputable section

open scoped BigOperators

namespace Cert.Tail

open Idealize.ShloMosaic Idealize.ShloMosaic.TcCoe Idealize.ShloMosaic.ValueIdx Idealize.SL.Sem

/-- The shared tail: (1·mean_loss + 1·(s / 8192)) + 1·disp_loss, over the reference's own stages. -/
def T (x y : (⟨Cert.ReferenceIdeal.S8192x128, .f32⟩ : BufTy).Contents (Elt Ideal))
    (s : (⟨Cert.ReferenceIdeal.S_, .f32⟩ : BufTy).Contents (Elt Ideal)) :
    (⟨Cert.ReferenceIdeal.S_, .f32⟩ : BufTy).Contents (Elt Ideal) :=
  addf (F := Ideal) (φ := .f32) (addf (F := Ideal) (φ := .f32) (Cert.ReferenceIdeal.Read.val_main_v10 (F := Ideal) x y)
      (mulf (F := Ideal) (φ := .f32) (Cert.ReferenceIdeal.Read.val_main_cst_12 (F := Ideal))
        (Host.divf (F := Ideal) (φ := .f32) s (Cert.ReferenceIdeal.Read.val_main_cst_11 (F := Ideal)))))
    (Cert.ReferenceIdeal.Read.val_main_v45 (F := Ideal) x)

/-- The reference's result is the tail at its sum of row minima. -/
theorem ref_tail (x y : (⟨Cert.ReferenceIdeal.S8192x128, .f32⟩ : BufTy).Contents (Elt Ideal)) :
    Cert.ReferenceIdeal.Read.val_main_v46 (F := Ideal) x y
      = T x y (Cert.ReferenceIdeal.Read.val_main_v26 (F := Ideal) x y) := by
  unfold T Cert.ReferenceIdeal.Read.val_main_v46 Cert.ReferenceIdeal.Read.val_main_v29
    Cert.ReferenceIdeal.Read.val_main_v28 Cert.ReferenceIdeal.Read.val_main_v27
  rfl

/-- The host's sum, from 0, of the two entries (a, 0, 0) of a [2, 8, 128] array whose entry (a, ·, ·) is `f a`
    is `f 0 + f 1`. -/
theorem sum_two (A : (⟨Cert.KernelIdeal.S2x8x128, .f32⟩ : BufTy).Contents (Elt Ideal)) (f : Fin 2 → EReal)
    (hA : A = fun i => f ⟨(i 0).val, (i 0).isLt⟩) :
    Host.reduceAdd (F := Ideal) (φ := .f32)
        (fun i => shapeCast Cert.KernelIdeal.S2
          (extractStridedSlice Cert.KernelIdeal.S2x1x1 ![0, 0, 0] A Cert.KernelIdeal.Gen.slices_S2x8x128_S2x1x1_0_0_0)
          Cert.KernelIdeal.Gen.shapeCasts_S2x1x1_S2 i)
        (constant Cert.KernelIdeal.S_ .f32 0x00000000#32) Cert.KernelIdeal.Gen.reducesTo_S2_S_d0 Cert.KernelIdeal.Gen.h_S_
      = fun _ => ∑ a : Fin 2, f a := by
  funext j
  simp only [Host.reduceAdd, Ideal.hostReduceAdd_def]
  rw [Ideal.hostReduceAdd_total Cert.KernelIdeal.Gen.reducesTo_S2_S_d0 (fun b => b.elim0)]
  show Ideal.ofBits .f32 0x00000000#32 + _ = _
  rw [Ideal.ofBits_zero_f32, zero_add]
  refine (Equiv.sum_comp (idxEquiv1 (n := 2)).symm _).symm.trans ?_
  refine Finset.sum_congr rfl fun a _ => ?_
  show shapeCast Cert.KernelIdeal.S2
      (extractStridedSlice Cert.KernelIdeal.S2x1x1 ![0, 0, 0] A Cert.KernelIdeal.Gen.slices_S2x8x128_S2x1x1_0_0_0)
      Cert.KernelIdeal.Gen.shapeCasts_S2x1x1_S2 (ix1 a) = f a
  rw [shapeCast_apply _ Cert.KernelIdeal.Gen.shapeCasts_S2x1x1_S2 (ix1 a) (ix3 a (0 : Fin 1) (0 : Fin 1))
      (by rw [Shape.rowMajor_val_three, Shape.rowMajor_val_one]; show (a.val * 1 + 0) * 1 + 0 = a.val; omega),
    extractStridedSlice_apply ![0, 0, 0] A Cert.KernelIdeal.Gen.slices_S2x8x128_S2x1x1_0_0_0
      (ix3 a (0 : Fin 1) (0 : Fin 1)) (ix3 a (0 : Fin 8) (0 : Fin 128))
      (fun b => by match b with | ⟨0, _⟩ => exact (Nat.zero_add _).symm | ⟨1, _⟩ => rfl | ⟨2, _⟩ => rfl),
    hA]

set_option maxHeartbeats 4000000 in
/-- The kernel's result is the tail at the sum of the two halves. -/
theorem ker_tail (m : (ℓ : Loc Cert.KernelIdeal.nD Cert.KernelIdeal.τ Cert.KernelIdeal.sig) → Buf (Elt Ideal) ℓ)
    (c : Dev Cert.KernelIdeal.nD) (X Y : Cert.DistLaw.SA.Idx → EReal)
    (hX : m ((c.tc : Thread Cert.KernelIdeal.nD Cert.KernelIdeal.τ).loc Cert.KernelIdeal.main_arg0) = X)
    (hY : m ((c.tc : Thread Cert.KernelIdeal.nD Cert.KernelIdeal.τ).loc Cert.KernelIdeal.main_arg1) = Y)
    (hA : (Cert.KernelIdeal.Gen.dats m 0 c).arrAt 3 Cert.KernelIdeal.cfg0.N
        = fun i => Cert.DistLaw.kerPart X Y ⟨(i 0).val, (i 0).isLt⟩) :
    Pipeline.afterTail₀ Cert.KernelIdeal.cfgs (Cert.KernelIdeal.Gen.dats m) 0 (Cert.KernelIdeal.Gen.V0 m)
        [Cert.KernelIdeal.Gen.hostOps1, Cert.KernelIdeal.Gen.hostOps1_1, Cert.KernelIdeal.Gen.hostOps1_2] c
        Cert.KernelIdeal.main_v33
      = T X Y (fun _ => Cert.DistLaw.kerSum X Y) := by
  unfold Pipeline.afterTail₀
  simp only [Cert.KernelIdeal.Gen.hostOps1, Cert.KernelIdeal.Gen.hostOps1_1, Cert.KernelIdeal.Gen.hostOps1_2,
    List.flatten_cons, List.flatten_nil, List.append_nil, List.cons_append, List.nil_append]
  show StableHlo.after _ _ (Proc.devRef .tc Cert.KernelIdeal.main_v33) = _
  after_results_simp
  generalize hW : Pipeline.withArrays (Cert.KernelIdeal.cfgs 0).spec c (Cert.KernelIdeal.Gen.V0 m c)
      (fun w => (Cert.KernelIdeal.Gen.dats m 0 c).arrAt w (Cert.KernelIdeal.cfgs 0).N) = W
  have e0 : W (Proc.devRef .tc Cert.KernelIdeal.main_arg0) = X := by
    rw [← hW]
    exact (Pipeline.withArrays_arr Cert.KernelIdeal.spec0 Cert.KernelIdeal.Gen.launch0.win.arr_inj c _ _ 0).trans
      (((Cert.KernelIdeal.Gen.dats m 0 c).arrAt_in 0 rfl _).trans
        ((Cert.KernelIdeal.Gen.A_eq m c 0).trans ((Cert.KernelIdeal.Gen.V_main_arg0 m c).trans hX)))
  have e1 : W (Proc.devRef .tc Cert.KernelIdeal.main_arg1) = Y := by
    rw [← hW]
    exact (Pipeline.withArrays_arr Cert.KernelIdeal.spec0 Cert.KernelIdeal.Gen.launch0.win.arr_inj c _ _ 2).trans
      (((Cert.KernelIdeal.Gen.dats m 0 c).arrAt_in 2 rfl _).trans
        ((Cert.KernelIdeal.Gen.A_eq m c 2).trans ((Cert.KernelIdeal.Gen.V_main_arg1 m c).trans hY)))
  have e3 : W (Proc.devRef .tc Cert.KernelIdeal.main_v2) = fun i => Cert.DistLaw.kerPart X Y ⟨(i 0).val, (i 0).isLt⟩ := by
    rw [← hW]
    exact (Pipeline.withArrays_arr Cert.KernelIdeal.spec0 Cert.KernelIdeal.Gen.launch0.win.arr_inj c _ _ 3).trans hA
  generalize W (Proc.devRef .tc Cert.KernelIdeal.main_v2) = A3 at e3 ⊢
  have hs : Host.reduceAdd (F := Ideal) (φ := .f32)
        (fun i => shapeCast Cert.KernelIdeal.main_v4.ty.shape
          (extractStridedSlice Cert.KernelIdeal.S2x1x1 ![0, 0, 0] A3 Cert.KernelIdeal.Gen.slices_S2x8x128_S2x1x1_0_0_0)
          Cert.KernelIdeal.Gen.shapeCasts_S2x1x1_S2 i)
        (constant Cert.KernelIdeal.S_ .f32 0x00000000#32) Cert.KernelIdeal.Gen.reducesTo_S2_S_d0 Cert.KernelIdeal.Gen.h_S_
      = fun _ => Cert.DistLaw.kerSum X Y := sum_two A3 (Cert.DistLaw.kerPart X Y) e3
  rw [e0, e1, hs]
  rfl

end Cert.Tail

end
-- ==== Proof.RefSide.lean ====
/-
  The reference's result, read one host operation at a time down to the distance law's reference total.
-/
import proofs.«402168_j45449343926664_3_alg».proof.Proof.Gen.ReferenceIdeal.Run
import proofs.«402168_j45449343926664_3_alg».proof.Proof.Gen.ReferenceIdeal.Read
import proofs.«402168_j45449343926664_3_alg».proof.Proof.DistLaw
import Idealize.ShloMosaic.Lib.ValueIdxRank1

noncomputable section

open scoped BigOperators

namespace Cert.ReferenceIdeal.RefSide

open Cert.ReferenceIdeal Cert.ReferenceIdeal.Gen Cert.ReferenceIdeal.Read Idealize.ShloMosaic Idealize.ShloMosaic.ValueIdx

/-- ‖x_q‖²: the row sums of the squares, from the initial value 0. -/
theorem v12_row (x : (⟨S8192x128, .f32⟩ : BufTy).Contents (Elt Ideal)) (q : Fin 8192) :
    val_main_v12 (F := Ideal) x (ix1 q) = Cert.DistLaw.sq x q := by
  rw [val_main_v12_apply, val_main_cst_6_apply, Ideal.ofBits_def, Ideal.ofBits_zero_f32, zero_add]
  unfold Cert.DistLaw.sq
  refine Finset.sum_congr rfl fun d _ => ?_
  rw [val_main_v11_apply, Ideal.mulf_def]
  have e : idx_main_v12 (ix1 q) d = ix2 q d :=
    funext fun a => Fin.ext (by match a with | ⟨0, _⟩ => rfl | ⟨1, _⟩ => rfl)
  rw [e]

/-- ‖y_j‖², the same for the second array. -/
theorem v14_row (y : (⟨S8192x128, .f32⟩ : BufTy).Contents (Elt Ideal)) (j : Fin 8192) :
    val_main_v14 (F := Ideal) y (ix1 j) = Cert.DistLaw.sq y j := by
  rw [val_main_v14_apply, val_main_cst_7_apply, Ideal.ofBits_def, Ideal.ofBits_zero_f32, zero_add]
  unfold Cert.DistLaw.sq
  refine Finset.sum_congr rfl fun d _ => ?_
  rw [val_main_v13_apply, Ideal.mulf_def]
  have e : idx_main_v14 (ix1 j) d = ix2 j d :=
    funext fun a => Fin.ext (by match a with | ⟨0, _⟩ => rfl | ⟨1, _⟩ => rfl)
  rw [e]

/-- ⟨x_q, y_j⟩: the product of x with the transpose of y, at (q, j). -/
theorem v16_elt (x y : (⟨S8192x128, .f32⟩ : BufTy).Contents (Elt Ideal)) (q j : Fin 8192) :
    val_main_v16 (F := Ideal) x y (ix2 q j) = Cert.DistLaw.dot x y q j := by
  rw [val_main_v16_apply]
  unfold Cert.DistLaw.dot
  refine Finset.sum_congr rfl fun d _ => ?_
  rw [val_main_v15_apply]
  have el : lidx_main_v16 (ix2 q j) d = ix2 q d :=
    funext fun a => Fin.ext (by match a with | ⟨0, _⟩ => rfl | ⟨1, _⟩ => rfl)
  have er : idx_main_v15 (ridx_main_v16 (ix2 q j) d) = ix2 j d :=
    funext fun a => Fin.ext (by match a with | ⟨0, _⟩ => rfl | ⟨1, _⟩ => rfl)
  rw [el, er]

/-- The matrix of squared distances at (q, j) is the law's reference term. -/
theorem v24_elt (x y : (⟨S8192x128, .f32⟩ : BufTy).Contents (Elt Ideal)) (q j : Fin 8192) :
    val_main_v24 (F := Ideal) x y (ix2 q j) = Cert.DistLaw.rterm x y q j := by
  have e1 : idx_main_v17 (idx_main_v20 (ix2 q j)) = ix1 q :=
    funext fun a => Fin.ext (by match a with | ⟨0, _⟩ => rfl)
  have e2 : idx_main_v22 (idx_main_v23 (ix2 q j)) = ix1 j :=
    funext fun a => Fin.ext (by match a with | ⟨0, _⟩ => rfl)
  rw [val_main_v24_apply, val_main_v21_apply, val_main_v20_apply, val_main_v17_apply, e1, v12_row,
    val_main_v19_apply, val_main_v18_apply, val_main_cst_8_apply, v16_elt,
    val_main_v23_apply, val_main_v22_apply, e2, v14_row,
    Ideal.addf_def, Ideal.subf_def, Ideal.mulf_def, Ideal.ofBits_def, Cert.DistLaw.ofBits_two]
  rfl

/-- Row q with column k put back is the index (q, k). -/
theorem lift_row (h : S8192x8192.Reduces [1] S8192) (q : Fin 8192) (k : Fin (S8192x8192.size 1)) :
    h.lift (ix1 q) k = ix2 q (⟨k.val, k.isLt⟩ : Fin 8192) := by
  funext c
  apply Fin.ext
  match c with
  | ⟨0, _⟩ => rfl
  | ⟨1, _⟩ => rfl

/-- The row minima: entry q is the minimum, from +∞, of the reference terms of row q. -/
theorem v25_row (x y : (⟨S8192x128, .f32⟩ : BufTy).Contents (Elt Ideal)) (q : Fin 8192) :
    val_main_v25 (F := Ideal) x y (ix1 q)
      = (Finset.univ : Finset (Fin 8192)).fold min (⊤ : EReal) (Cert.DistLaw.rterm x y q) := by
  have h : S8192x8192.Reduces [1] S8192 := by decide
  unfold val_main_v25
  rw [Host.reduce_eq_fold_single (FloatOps.minimumf (F := Ideal) (φ := .f32)) (val_main_v24 (F := Ideal) x y)
    (val_main_cst_9 (F := Ideal)) reducesTo_S8192x8192_S8192_d1 h h_S_ (ix1 q)]
  have hf : (val_main_v24 (F := Ideal) x y ∘ h.lift (ix1 q)) = fun k : Fin 8192 => Cert.DistLaw.rterm x y q k :=
    funext fun k => by
      show val_main_v24 (F := Ideal) x y (h.lift (ix1 q) k) = _
      rw [lift_row h q k, v24_elt]
      rfl
  have hi : val_main_cst_9 (F := Ideal) (Shape.Idx.first h_S_) = (⊤ : EReal) := Cert.DistLaw.ofBits_inf
  rw [hf, hi]
  rfl

/-- The reference's buffer main_v26: the sum, from 0, of the 8192 row minima, is the law's reference total. -/
theorem v26_eq (x y : (⟨S8192x128, .f32⟩ : BufTy).Contents (Elt Ideal)) :
    Read.val_main_v26 (F := Ideal) x y = fun _ => Cert.DistLaw.refSum x y := by
  funext i
  rw [val_main_v26_apply, val_main_cst_10_apply, Ideal.ofBits_def, Ideal.ofBits_zero_f32, zero_add]
  unfold Cert.DistLaw.refSum
  refine (Equiv.sum_comp (idxEquiv1 (n := 8192)).symm (val_main_v25 (F := Ideal) x y)).symm.trans ?_
  exact Finset.sum_congr rfl fun q _ => v25_row x y q

end Cert.ReferenceIdeal.RefSide

end
-- ==== Proof.Finite.lean ====
/-
  Finiteness: when the printed precondition (|v| < +∞ at every entry of both arrays, all of them and-ed together)
  is 1, every entry of both arrays is a real number.
-/
import proofs.«402168_j45449343926664_3_alg».proof.Pre_finite_inputs
import proofs.«402168_j45449343926664_3_alg».proof.Proof.Gen.Pre_finite_inputs
import proofs.«402168_j45449343926664_3_alg».proof.Proof.DistLaw
import Idealize.ShloMosaic.Lib.ReduceAll
import Idealize.ShloMosaic.Lib.ValueIdx

noncomputable section

namespace Cert.Finite

open Idealize.ShloMosaic Idealize.ShloMosaic.ValueIdx

/-- The scalar shape has one index. -/
instance : Subsingleton Cert.Pre_finite_inputs.S_.Idx := ⟨fun _ _ => funext fun d => d.elim0⟩

/-- An entry whose comparison |v| < +∞ came out 1 is a real number. -/
theorem real_of_cmp (v : EReal)
    (h : Ideal.cmp .olt (max v (-v)) (Ideal.ofBits .f32 0x7F800000#32) = 1#1) : ∃ r : ℝ, v = (r : EReal) := by
  apply Cert.DistLaw.real_of_abs_lt_top
  rw [Cert.DistLaw.ofBits_inf] at h
  have h' : BitVec.ofBool (decide (max v (-v) < (⊤ : EReal))) = 1#1 := h
  by_cases hlt : max v (-v) < (⊤ : EReal)
  · exact hlt
  · rw [decide_eq_false hlt] at h'
    exact absurd h' (by decide)

/-- From the precondition to the entries: both arrays hold real numbers only. -/
theorem real_of_pre (x y : FVec Ideal Cert.Pre_finite_inputs.S8192x128 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ix0
  dsimp only [Cert.Pre_finite_inputs.fn] at h0
  change IntOp.andi _ _ = 1#1 at h0
  obtain ⟨hx, hy⟩ := IntOp.andi_eq_one.1 h0
  refine ⟨fun i => ?_, fun i => ?_⟩
  · exact real_of_cmp (x i) (Host.reduce_andi_all _ _ _ _ _ hx i)
  · exact real_of_cmp (y i) (Host.reduce_andi_all _ _ _ _ _ hy i)

end Cert.Finite

end
-- ==== Proof.lean ====
/-
  The certificate of the clustering loss: mean loss + nearest-neighbour distance loss + dispersion loss.

  Both programs return (1·mean_loss + 1·(S / 8192)) + 1·disp_loss, with the mean loss and the dispersion loss the
  same host operations of the two arguments x, y : f32[8192, 128]. They differ in S, the sum over the rows q of x of
  the squared distance to the nearest row of y:
    the reference takes, per q, the minimum over all rows j of y of (‖x_q‖² − 2·⟨x_q, y_j⟩) + ‖y_j‖², and sums;
    the kernel, per half of x and block by block over y, keeps the running minimum of ½·‖y_j‖² − ⟨y_j, x_q⟩,
    and after the last block sums 2·(that minimum) + ‖x_q‖² over the half; the host adds the two halves.
  On real entries 2·min_j(½a_j − b_j) + s = min_j((s − 2·b_j) + a_j), so the two sums agree; the entries are real
  by the precondition (every input finite), which the law needs: on the extended reals ∞ − ∞ breaks it.

  The modules: the law itself, free of any program; what each control case of the kernel body leaves, and the
  body's arithmetic at an index; the input blocks at an index; the two scratch rows after every grid point, by
  induction on the point; the result array after the region; the host operations after the region as one shared
  function of S; the reference's S read operation by operation; and the finiteness of the inputs from the precondition.
-/
import proofs.«402168_j45449343926664_3_alg».proof.Defs
import proofs.«402168_j45449343926664_3_alg».proof.Proof.Gen.Kernel
import proofs.«402168_j45449343926664_3_alg».proof.Proof.Gen.Kernel.Skeleton
import proofs.«402168_j45449343926664_3_alg».proof.Proof.Gen.Kernel.Launch
import proofs.«402168_j45449343926664_3_alg».proof.Proof.Gen.Kernel.Points
import proofs.«402168_j45449343926664_3_alg».proof.Proof.Gen.Kernel.Frame
import proofs.«402168_j45449343926664_3_alg».proof.Proof.Gen.KernelIdeal
import proofs.«402168_j45449343926664_3_alg».proof.Proof.Gen.KernelIdeal.Skeleton
import proofs.«402168_j45449343926664_3_alg».proof.Proof.Gen.KernelIdeal.Launch
import proofs.«402168_j45449343926664_3_alg».proof.Proof.Gen.KernelIdeal.Points
import proofs.«402168_j45449343926664_3_alg».proof.Proof.Gen.KernelIdeal.Frame
import proofs.«402168_j45449343926664_3_alg».proof.Proof.Gen.ReferenceIdeal
import proofs.«402168_j45449343926664_3_alg».proof.Proof.Gen.ReferenceIdeal.Run
import proofs.«402168_j45449343926664_3_alg».proof.Proof.Gen.ReferenceIdeal.Read
import proofs.«402168_j45449343926664_3_alg».proof.Proof.Gen.Pre_finite_inputs
import proofs.«402168_j45449343926664_3_alg».proof.Proof.Final
import proofs.«402168_j45449343926664_3_alg».proof.Proof.Tail
import proofs.«402168_j45449343926664_3_alg».proof.Proof.RefSide
import proofs.«402168_j45449343926664_3_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two idealized programs end with the same loss: the shared host operations applied to the kernel's sum
    of nearest squared distances, which on finite inputs is the reference's. -/
theorem algebraic : Cert.algebraic_KernelIdeal_ReferenceIdeal := by
  intro m ρ m' ρ' hpre hagree
  refine ⟨fun c => Cert.Tail.T (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (fun _ => Cert.DistLaw.kerSum (m ((c.tc : Thread Cert.KernelIdeal.nD Cert.KernelIdeal.τ).loc Cert.KernelIdeal.main_arg0))
        (m ((c.tc : Thread Cert.KernelIdeal.nD Cert.KernelIdeal.τ).loc Cert.KernelIdeal.main_arg1))), ?_, ?_⟩
  · refine (θ_run Cert.KernelIdeal.defs _ _).mono (fun r h c => ⟨?_, ?_, ?_⟩) (Cert.KernelIdeal.Gen.run_main m ρ)
    · exact ((h c).2 Cert.KernelIdeal.main_v33 (Pipeline.mem_restRefs_of _ (by decide) (by decide))).trans
        (Cert.Tail.ker_tail m c _ _ rfl rfl (Cert.KernelIdeal.Final.final m c))
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).1 2).trans (((Cert.KernelIdeal.Gen.dats m 0 c).arrAt_in 2 rfl _).trans
        ((Cert.KernelIdeal.Gen.A_eq m c 2).trans (Cert.KernelIdeal.Gen.V_main_arg1 m c)))
  · refine (θ_run Cert.ReferenceIdeal.defs _ _).mono (fun r h c => ⟨?_, (h c).2.1, (h c).2.2⟩)
      (Cert.ReferenceIdeal.Value.run (F := Ideal) m' ρ')
    refine ((h c).1.trans (Cert.ReferenceIdeal.Read.val_main_v46_eq (F := Ideal) _ _)).trans ?_
    rw [Cert.Tail.ref_tail, Cert.ReferenceIdeal.RefSide.v26_eq, (hagree c).1, (hagree c).2]
    obtain ⟨hx, hy⟩ := Cert.Finite.real_of_pre _ _ (hpre c)
    have e := Cert.DistLaw.kerSum_eq_refSum _ _ hx hy
    show Cert.Tail.T _ _ (fun _ => Cert.DistLaw.refSum _ _) = Cert.Tail.T _ _ (fun _ => Cert.DistLaw.kerSum _ _)
    rw [e]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
